-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x128x80x80 : Shape := ⟨5, ![2, 16, 128, 80, 80]⟩
abbrev S_ : Shape := ⟨0, ![]⟩

class Facts : Prop where
  bcast_S_S2x16x128x80x80 : S_.BroadcastsInDim S2x16x128x80x80 (![] : Fin 0 → Fin S2x16x128x80x80.rank)
  reducesTo_S2x16x128x80x80_S_d0_1_2_3_4 : S2x16x128x80x80.ReducesTo [0, 1, 2, 3, 4] S_
  h_S_ : 0 < S_.numel

variable [Facts]

def fn {F : FTy → Type} [FloatOps F] (main_arg0 : FVec F S2x16x128x80x80 .f32) (main_arg1 : FVec F S2x16x128x80x80 .f32) (main_arg2 : FVec F S2x16x128x80x80 .f32) : IVec S_ 1 :=
  let main_v0 : FVec F S2x16x128x80x80 .f32 := Host.absf main_arg0
  let main_cst : FVec F S_ .f32 := constant S_ .f32 0x7F800000#32
  let main_v1 : FVec F S2x16x128x80x80 .f32 := broadcastInDim S2x16x128x80x80 ![] bcast_S_S2x16x128x80x80 main_cst
  let main_v2 : IVec S2x16x128x80x80 1 := cmpf .olt main_v0 main_v1
  let main_c : IVec S_ 1 := constantI S_ 1 1#1
  let main_v3 : IVec S_ 1 := (fun x v => Host.reduce IntOp.andi x v reducesTo_S2x16x128x80x80_S_d0_1_2_3_4 h_S_) main_v2 main_c
  let main_v4 : FVec F S2x16x128x80x80 .f32 := Host.absf main_arg1
  let main_cst_0 : FVec F S_ .f32 := constant S_ .f32 0x7F800000#32
  let main_v5 : FVec F S2x16x128x80x80 .f32 := broadcastInDim S2x16x128x80x80 ![] bcast_S_S2x16x128x80x80 main_cst_0
  let main_v6 : IVec S2x16x128x80x80 1 := cmpf .olt main_v4 main_v5
  let main_c_1 : IVec S_ 1 := constantI S_ 1 1#1
  let main_v7 : IVec S_ 1 := (fun x v => Host.reduce IntOp.andi x v reducesTo_S2x16x128x80x80_S_d0_1_2_3_4 h_S_) main_v6 main_c_1
  let main_v8 : IVec S_ 1 := andi main_v3 main_v7
  let main_v9 : FVec F S2x16x128x80x80 .f32 := Host.absf main_arg2
  let main_cst_2 : FVec F S_ .f32 := constant S_ .f32 0x7F800000#32
  let main_v10 : FVec F S2x16x128x80x80 .f32 := broadcastInDim S2x16x128x80x80 ![] bcast_S_S2x16x128x80x80 main_cst_2
  let main_v11 : IVec S2x16x128x80x80 1 := cmpf .olt main_v9 main_v10
  let main_c_3 : IVec S_ 1 := constantI S_ 1 1#1
  let main_v12 : IVec S_ 1 := (fun x v => Host.reduce IntOp.andi x v reducesTo_S2x16x128x80x80_S_d0_1_2_3_4 h_S_) main_v11 main_c_3
  let main_v13 : IVec S_ 1 := andi main_v8 main_v12
  main_v13
-- ==== Kernel.lean ====
abbrev S2x16x128x80x80 : Shape := ⟨5, ![2, 16, 128, 80, 80]⟩
abbrev S2x128x128 : Shape := ⟨3, ![2, 128, 128]⟩
abbrev S1x1x128x80x80 : Shape := ⟨5, ![1, 1, 128, 80, 80]⟩
abbrev S1x128x128 : Shape := ⟨3, ![1, 128, 128]⟩
abbrev S128x128 : Shape := ⟨2, ![128, 128]⟩
abbrev S128x80x80 : Shape := ⟨3, ![128, 80, 80]⟩
abbrev S128x6400 : Shape := ⟨2, ![128, 6400]⟩
abbrev S128 : Shape := ⟨1, ![128]⟩
abbrev S128x1 : Shape := ⟨2, ![128, 1]⟩

abbrev nBuf : Space → Nat
  | .hbm => 5
  | .vmem => 13
  | .smem => 0
  | _ => 0

abbrev bufTy : (tb : Table) → Fin (tcTables nBuf tb) → BufTy
  | .hbm, ⟨0, _⟩ => ⟨S2x16x128x80x80, .f32⟩
  | .hbm, ⟨1, _⟩ => ⟨S2x16x128x80x80, .f32⟩
  | .hbm, ⟨2, _⟩ => ⟨S2x16x128x80x80, .f32⟩
  | .hbm, ⟨3, _⟩ => ⟨S2x128x128, .f32⟩
  | .hbm, ⟨4, _⟩ => ⟨S2x16x128x80x80, .f32⟩
  | .local _ .vmem, ⟨0, _⟩ => ⟨S1x1x128x80x80, .f32⟩
  | .local _ .vmem, ⟨1, _⟩ => ⟨S1x1x128x80x80, .f32⟩
  | .local _ .vmem, ⟨2, _⟩ => ⟨S1x1x128x80x80, .f32⟩
  | .local _ .vmem, ⟨3, _⟩ => ⟨S1x1x128x80x80, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S1x128x128, .f32⟩
  | .local _ .vmem, ⟨8, _⟩ => ⟨S1x128x128, .f32⟩
  | .local _ .vmem, ⟨9, _⟩ => ⟨S1x1x128x80x80, .f32⟩
  | .local _ .vmem, ⟨10, _⟩ => ⟨S1x1x128x80x80, .f32⟩
  | .local _ .vmem, ⟨11, _⟩ => ⟨S1x1x128x80x80, .f32⟩
  | .local _ .vmem, ⟨12, _⟩ => ⟨S1x1x128x80x80, .f32⟩
  | _, _ => ⟨S2x16x128x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_14 : BitVec 32 := 0#32
  let v19 : BitVec 1 := Scalar.cmpi .ne v18 c0_i32_14
  v19

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x80x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x80x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x128x80x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128x80x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x128x80x80_S1x1x128x80x80_0_0_0_0_0 : ∀ a, (![0, 0, 0, 0, 0] : Fin 5 → Nat) a + S1x1x128x80x80.size a ≤ S1x1x128x80x80.size a
  h_S1x1x128x80x80 : 0 < S1x1x128x80x80.numel
  shapeCasts_S1x1x128x80x80_S128x80x80 : S1x1x128x80x80.ShapeCasts S128x80x80
  shapeCasts_S128x80x80_S128x6400 : S128x80x80.ShapeCasts S128x6400
  bitsLt_bf16_f32 : FTy.bits .bf16 < FTy.bits .f32
  reduces_S128x128_S128 : S128x128.Reduces [1] S128
  shapeCasts_S128_S128x1 : S128.ShapeCasts S128x1
  broadcasts_S128x1_S128x128 : S128x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S128x6400_S128x80x80 : S128x6400.ShapeCasts S128x80x80
  shapeCasts_S128x80x80_S1x1x128x80x80 : S128x80x80.ShapeCasts S1x1x128x80x80
  dot_S128x6400_S128x6400_S128x128_1_1_0_0_n_n_wf : DotDims.WF S128x6400 S128x6400 S128x128 [1] [1] [0] [0] [] []
  dot_S128x128_S128x6400_S128x6400_1_0_0_1_n_n_wf : DotDims.WF S128x128 S128x6400 S128x6400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x80x80.size a ≤ S2x16x128x80x80.size a
  hwx0_0 : ∀ i : grid0.Coords, EltTy.bits .f32 = 32 ∨ (Rect.block (s := S2x16x128x80x80) S1x1x128x80x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x80x80.size a ≤ S2x16x128x80x80.size a
  hwx0_1 : ∀ i : grid0.Coords, EltTy.bits .f32 = 32 ∨ (Rect.block (s := S2x16x128x80x80) S1x1x128x80x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S2x128x128.size a
  hwx1_0 : ∀ i : grid1.Coords, EltTy.bits .f32 = 32 ∨ (Rect.block (s := S2x128x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x80x80.size a ≤ S2x16x128x80x80.size a
  hwx1_1 : ∀ i : grid1.Coords, EltTy.bits .f32 = 32 ∨ (Rect.block (s := S2x16x128x80x80) S1x1x128x80x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128x80x80.size a ≤ S2x16x128x80x80.size a
  hwx1_2 : ∀ i : grid1.Coords, EltTy.bits .f32 = 32 ∨ (Rect.block (s := S2x16x128x80x80) S1x1x128x80x80.size (cc1_transform_2 i) (hinb1_2 i)).WholeWords (EltTy.packing .f32)

variable [Facts₀]

def dot_S128x6400_S128x6400_S128x128_1_1_0_0_n_n : DotDims S128x6400 S128x6400 S128x128 where
  lhsContracting := [1]
  rhsContracting := [1]
  lhsNonContracting := [0]
  rhsNonContracting := [0]
  lhsBatch := []
  rhsBatch := []
  wf := dot_S128x6400_S128x6400_S128x128_1_1_0_0_n_n_wf
def dot_S128x128_S128x6400_S128x6400_1_0_0_1_n_n : DotDims S128x128 S128x6400 S128x6400 where
  lhsContracting := [1]
  rhsContracting := [0]
  lhsNonContracting := [0]
  rhsNonContracting := [1]
  lhsBatch := []
  rhsBatch := []
  wf := dot_S128x128_S128x6400_S128x6400_1_0_0_1_n_n_wf

abbrev win0_0 : Pipeline.Window sig grid0 :=
  Pipeline.Window.ofSpec (Memref.whole main_arg0) S1x1x128x80x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x80x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1x128x80x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x128x80x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16x128x80x80 : Shape := ⟨5, ![2, 16, 128, 80, 80]⟩
abbrev S2x128x16x80x80 : Shape := ⟨5, ![2, 128, 16, 80, 80]⟩
abbrev S2x128x102400 : Shape := ⟨3, ![2, 128, 102400]⟩
abbrev S2x128x128 : Shape := ⟨3, ![2, 128, 128]⟩
abbrev S_ : Shape := ⟨0, ![]⟩
abbrev S2x128 : Shape := ⟨2, ![2, 128]⟩
abbrev S2x128x1 : Shape := ⟨3, ![2, 128, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x128x80x80, .f32⟩
  | .hbm, ⟨1, _⟩ => ⟨S2x16x128x80x80, .f32⟩
  | .hbm, ⟨2, _⟩ => ⟨S2x16x128x80x80, .f32⟩
  | .hbm, ⟨3, _⟩ => ⟨S2x128x16x80x80, .f32⟩
  | .hbm, ⟨4, _⟩ => ⟨S2x128x102400, .f32⟩
  | .hbm, ⟨5, _⟩ => ⟨S2x128x16x80x80, .f32⟩
  | .hbm, ⟨6, _⟩ => ⟨S2x128x102400, .f32⟩
  | .hbm, ⟨7, _⟩ => ⟨S2x128x16x80x80, .f32⟩
  | .hbm, ⟨8, _⟩ => ⟨S2x128x102400, .f32⟩
  | .hbm, ⟨9, _⟩ => ⟨S2x128x128, .f32⟩
  | .hbm, ⟨10, _⟩ => ⟨S_, .f32⟩
  | .hbm, ⟨11, _⟩ => ⟨S2x128, .f32⟩
  | .hbm, ⟨12, _⟩ => ⟨S_, .f32⟩
  | .hbm, ⟨13, _⟩ => ⟨S2x128, .f32⟩
  | .hbm, ⟨14, _⟩ => ⟨S2x128, .f32⟩
  | .hbm, ⟨15, _⟩ => ⟨S2x128x1, .f32⟩
  | .hbm, ⟨16, _⟩ => ⟨S2x128x128, .f32⟩
  | .hbm, ⟨17, _⟩ => ⟨S2x128x128, .f32⟩
  | .hbm, ⟨18, _⟩ => ⟨S2x128x128, .f32⟩
  | .hbm, ⟨19, _⟩ => ⟨S_, .f32⟩
  | .hbm, ⟨20, _⟩ => ⟨S2x128, .f32⟩
  | .hbm, ⟨21, _⟩ => ⟨S2x128x1, .f32⟩
  | .hbm, ⟨22, _⟩ => ⟨S2x128x128, .f32⟩
  | .hbm, ⟨23, _⟩ => ⟨S2x128x128, .f32⟩
  | .hbm, ⟨24, _⟩ => ⟨S2x128x102400, .f32⟩
  | .hbm, ⟨25, _⟩ => ⟨S2x128x16x80x80, .f32⟩
  | .hbm, ⟨26, _⟩ => ⟨S2x16x128x80x80, .f32⟩
  | _, _ => ⟨S2x16x128x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S2x16x128x80x80_S2x128x16x80x80_0_2_1_3_4 : S2x16x128x80x80.Transposes [0, 2, 1, 3, 4] S2x128x16x80x80
  shapeCasts_S2x128x16x80x80_S2x128x102400 : S2x128x16x80x80.ShapeCasts S2x128x102400
  reducesTo_S2x128x128_S2x128_d2 : S2x128x128.ReducesTo [2] S2x128
  h_S_ : 0 < S_.numel
  bcast_S_S2x128 : S_.BroadcastsInDim S2x128 (![] : Fin 0 → Fin S2x128.rank)
  bcast_S2x128_S2x128x1_0_1 : S2x128.BroadcastsInDim S2x128x1 (![0, 1] : Fin 2 → Fin S2x128x1.rank)
  bcast_S2x128x1_S2x128x128_0_1_2 : S2x128x1.BroadcastsInDim S2x128x128 (![0, 1, 2] : Fin 3 → Fin S2x128x128.rank)
  shapeCasts_S2x128x102400_S2x128x16x80x80 : S2x128x102400.ShapeCasts S2x128x16x80x80
  transposes_S2x128x16x80x80_S2x16x128x80x80_0_2_1_3_4 : S2x128x16x80x80.Transposes [0, 2, 1, 3, 4] S2x16x128x80x80
  dot_S2x128x102400_S2x128x102400_S2x128x128_2_2_1_1_0_0_wf : DotDims.WF S2x128x102400 S2x128x102400 S2x128x128 [2] [2] [1] [1] [0] [0]
  dot_S2x128x128_S2x128x102400_S2x128x102400_2_1_1_2_0_0_wf : DotDims.WF S2x128x128 S2x128x102400 S2x128x102400 [2] [1] [1] [2] [0] [0]

variable [Facts₀]

def dot_S2x128x102400_S2x128x102400_S2x128x128_2_2_1_1_0_0 : DotDims S2x128x102400 S2x128x102400 S2x128x128 where
  lhsContracting := [2]
  rhsContracting := [2]
  lhsNonContracting := [1]
  rhsNonContracting := [1]
  lhsBatch := [0]
  rhsBatch := [0]
  wf := dot_S2x128x102400_S2x128x102400_S2x128x128_2_2_1_1_0_0_wf
def dot_S2x128x128_S2x128x102400_S2x128x102400_2_1_1_2_0_0 : DotDims S2x128x128 S2x128x102400 S2x128x102400 where
  lhsContracting := [2]
  rhsContracting := [1]
  lhsNonContracting := [1]
  rhsNonContracting := [2]
  lhsBatch := [0]
  rhsBatch := [0]
  wf := dot_S2x128x128_S2x128x102400_S2x128x102400_2_1_1_2_0_0_wf

class Facts : Prop extends Facts₀ where

variable [Facts]
-- ==== Proof.Bits.ScoresCases.lean ====
/- The scores region (the first pallas_call): a grid of 2 × 16 points (b, c). At c = 0 the 128 × 128
   accumulator is cleared, at every point the product of the two 128 × 6400 blocks (one against the
   other's transpose) is added to it, and at c = 15 its row-wise softmax is stored into the output block.
   This module fixes what the three kinds of point share: the two branch conditions in closed form over the
   32 points, where the output window is idle and where it is written back, the staging memrefs at a point,
   and the region's resting invariant spelt out buffer by buffer. -/
import proofs.«171464_j53326313947744_1_alg».proof.Proof.Gen.Kernel.Launch
import proofs.«171464_j53326313947744_1_alg».proof.Proof.Gen.Kernel.Skeleton
import proofs.«171464_j53326313947744_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- "c = 0": the accumulator is cleared at this point. -/
abbrev isFirst (i : grid0.Coords) : Prop :=
  (Scalar.cmpi .ne (Scalar.extui (Scalar.cmpi .eq (BitVec.ofNat 32 (i 1).val) 0#32)) 0#32) = 1#1
/-- Of the 32 points in row-major order these are the two with index ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)

/-- "c = 15": the softmax of the accumulator is stored at this point. -/
abbrev isLast (i : grid0.Coords) : Prop := k0_cond2 i = 1#1
/-- These are the two points with index ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_x : ∀ t : Fin cfg0.N, cfg0.idle 0 (grid0.coords t) = false := by decide +kernel
theorem live_xt : ∀ t : Fin cfg0.N, cfg0.idle 1 (grid0.coords t) = false := by decide +kernel
/-- Away from c = 15 nothing is stored into the output block: the window is idle there, -/
theorem idle_out : ∀ t : Fin cfg0.N, ¬isLast (grid0.coords t) → cfg0.idle 2 (grid0.coords t) = true := by decide +kernel
/-- and its block is not written back there. -/
theorem noFlush_out : ∀ t : Fin cfg0.N, ¬isLast (grid0.coords t) → (cfg0.win 2).flush t = false := by decide +kernel
/-- At c = 15 it is live. -/
theorem live_out : ∀ t : Fin cfg0.N, isLast (grid0.coords t) → cfg0.idle 2 (grid0.coords t) = false := by decide +kernel

/-! ## The memrefs at a point -/

abbrev mx (t : Fin cfg0.N) : Memref sig .tc .vmem S1x1x128x80x80 .f32 := win0_0.stage (cfg0.slots t 0)
abbrev hmx (t : Fin cfg0.N) : (mx t).IsWhole := hstage0_0 ((cfg0.slots t 0).cast nbuf0_0)
abbrev mxt (t : Fin cfg0.N) : Memref sig .tc .vmem S1x1x128x80x80 .f32 := win0_1.stage (cfg0.slots t 1)
abbrev hmxt (t : Fin cfg0.N) : (mxt t).IsWhole := hstage0_1 ((cfg0.slots t 1).cast nbuf0_1)
abbrev mo (t : Fin cfg0.N) : Memref sig .tc .vmem S1x128x128 .f32 := win0_2.stage (cfg0.slots t 2)
abbrev hmo (t : Fin cfg0.N) : (mo t).IsWhole := hstage0_2 ((cfg0.slots t 2).cast nbuf0_2)
/-- The accumulator: a whole scoped buffer of the kernel's own. -/
abbrev accM : Memref sig .tc .vmem S128x128 .f32 := Memref.whole cc0_scratch0
abbrev accV : View sig .tc .vmem S128x128 .f32 := accM.view
/-- One staging buffer of the output window, through which its contents are stated. -/
abbrev outV : View sig .tc .vmem S1x128x128 .f32 := (Memref.whole cc0_stg2_0 : Memref sig .tc .vmem S1x128x128 .f32).view

/-! ## The resting invariant, buffer by buffer -/

/-- The scoped buffers the region never touches: the second region's six staging buffers, each whole at some contents. -/
def idleBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Outside the points the region holds the accumulator at some contents, those six buffers and the generator register. -/
theorem rest_eq (c : Dev nD) :
    (Pipeline.ΦA spec0 c : sProp 𝕄)
      = iprop(((∃ d, owns (c : Thread nD τ) accM fullShare d) ∗ idleBufs c) ∗ (∃ r, prngReg c r)) := by
  unfold Pipeline.ΦA idleBufs; rw [scopedRest0_eq]; simp only [accM, owns_whole]; try rfl

end Cert.Kernel.Scores

end
-- ==== Proof.Bits.ScoresFirst.lean ====
/- The scores body at a point with c = 0 (and c ≠ 15): the accumulator, whatever it held, is overwritten with
   zeros, read back, and overwritten again with zeros plus the blocks' product; the output block is not touched.
   The theorem packaged here is the run itself: from the two input blocks at their contents, the output buffer at
   any contents (handed back as found) and the accumulator at anything, the body ends with the accumulator holding
   the pieces its two stores wrote, latest first. The list of pieces is left for the run to determine. -/
import proofs.«171464_j53326313947744_1_alg».proof.Proof.Bits.ScoresCases

set_option maxRecDepth 16384

noncomputable section

namespace Cert.Kernel.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole) (hf : isFirst i) (hl : ¬isLast i)
    (x0 : Vec F S1x1x128x80x80 .f32) (x1 : Vec F S1x1x128x80x80 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Scores

end
-- ==== Proof.Bits.ScoresMiddle.lean ====
/- The scores body at a point with 0 < c < 15: the accumulator, holding what the point before left, is read and
   overwritten with itself plus the blocks' product; the output block is not touched. As for the first kind of
   point the theorem is the run, and the accumulator's pieces are left for the run to determine. -/
import proofs.«171464_j53326313947744_1_alg».proof.Proof.Bits.ScoresCases

set_option maxRecDepth 16384

noncomputable section

namespace Cert.Kernel.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole) (hf : ¬isFirst i) (hl : ¬isLast i)
    (x0 : Vec F S1x1x128x80x80 .f32) (x1 : Vec F S1x1x128x80x80 .f32) (xs : Vec F S128x128 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Scores

end
-- ==== Proof.Bits.ScoresLast.lean ====
/- The scores body at a point with c = 15: the accumulator, holding what the point before left, is read and
   overwritten with itself plus the blocks' product, read once more, and its row-wise softmax is stored over the
   whole output block (whatever that held). The theorem is the run; both piece lists are left for it to determine. -/
import proofs.«171464_j53326313947744_1_alg».proof.Proof.Bits.ScoresCases

set_option maxRecDepth 16384

noncomputable section

namespace Cert.Kernel.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole) (hf : ¬isFirst i) (hl : isLast i)
    (x0 : Vec F S1x1x128x80x80 .f32) (x1 : Vec F S1x1x128x80x80 .f32) (xs : Vec F S128x128 .f32) :
    Σ' (L2 : List (View.Piece (Elt F) S1x128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨?_, ?_, fun E K => ?run⟩
  case run =>
    simp only [cc0__scores_kernel_eq_skeleton]; unfold cc0__scores_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Scores

end
-- ==== Proof.Bits.ScoresData.lean ====
/- The scores region's proof data, at the contents `V` the core's buffers hold when the region is entered.
   The accumulator after point n is defined by recursion on n: at a point with c = 0 it is what the first kind of
   run leaves (zeros plus the blocks' product), elsewhere what the middle or last kind leaves over the accumulator
   of the point before. The output block after a point with c = 15 is what the last kind of run stores, computed
   from the accumulator of the point before; at the other points the window is idle and its contents are not named.
   Between points the region holds the accumulator at those contents, beside the scoped buffers it never touches and
   the generator register. From these: the proof data, and the body obligation at every point by cases on c. -/
import proofs.«171464_j53326313947744_1_alg».proof.Proof.Bits.ScoresFirst
import proofs.«171464_j53326313947744_1_alg».proof.Proof.Bits.ScoresMiddle
import proofs.«171464_j53326313947744_1_alg».proof.Proof.Bits.ScoresLast

set_option maxRecDepth 16384

noncomputable section

namespace Cert.Kernel.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_xt_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What each kind of run leaves -/

section Pieces
variable (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole)

/-- The accumulator's pieces after a run of the first kind tile it. -/
theorem accFirst_cover (hf : isFirst i) (hl : ¬isLast i) (x0 x1 : Vec F S1x1x128x80x80 .f32) (y : S128x128.Idx) :
    ∃ pc ∈ (runFirst c i arg2 harg2 arg3 harg3 arg4 harg4 arg5 harg5 hf hl x0 x1).2.1, y ∈ pc.1.set :=
  View.cover_of_tiledL (runFirst c i arg2 harg2 arg3 harg3 arg4 harg4 arg5 harg5 hf hl x0 x1).2.1 S128x128.size (by sl_kernel_rfl) y
/-- What a run of the first kind leaves in the accumulator. -/
def accFirst (hf : isFirst i) (hl : ¬isLast i) (x0 x1 : Vec F S1x1x128x80x80 .f32) : Vec F S128x128 .f32 :=
  View.canon (runFirst c i arg2 harg2 arg3 harg3 arg4 harg4 arg5 harg5 hf hl x0 x1).2.1

theorem accMiddle_cover (hf : ¬isFirst i) (hl : ¬isLast i) (x0 x1 : Vec F S1x1x128x80x80 .f32) (xs : Vec F S128x128 .f32) (y : S128x128.Idx) :
    ∃ pc ∈ (runMiddle c i arg2 harg2 arg3 harg3 arg4 harg4 arg5 harg5 hf hl x0 x1 xs).2.1, y ∈ pc.1.set :=
  View.cover_of_tiledL (runMiddle c i arg2 harg2 arg3 harg3 arg4 harg4 arg5 harg5 hf hl x0 x1 xs).2.1 S128x128.size (by sl_kernel_rfl) y
/-- What a run of the middle kind leaves in the accumulator, over `xs`. -/
def accMiddle (hf : ¬isFirst i) (hl : ¬isLast i) (x0 x1 : Vec F S1x1x128x80x80 .f32) (xs : Vec F S128x128 .f32) : Vec F S128x128 .f32 :=
  View.canon (runMiddle c i arg2 harg2 arg3 harg3 arg4 harg4 arg5 harg5 hf hl x0 x1 xs).2.1

theorem accLast_cover (hf : ¬isFirst i) (hl : isLast i) (x0 x1 : Vec F S1x1x128x80x80 .f32) (xs : Vec F S128x128 .f32) (y : S128x128.Idx) :
    ∃ pc ∈ (runLast c i arg2 harg2 arg3 harg3 arg4 harg4 arg5 harg5 hf hl x0 x1 xs).2.1, y ∈ pc.1.set :=
  View.cover_of_tiledL (runLast c i arg2 harg2 arg3 harg3 arg4 harg4 arg5 harg5 hf hl x0 x1 xs).2.1 S128x128.size (by sl_kernel_rfl) y
/-- What a run of the last kind leaves in the accumulator, over `xs`. -/
def accLast (hf : ¬isFirst i) (hl : isLast i) (x0 x1 : Vec F S1x1x128x80x80 .f32) (xs : Vec F S128x128 .f32) : Vec F S128x128 .f32 :=
  View.canon (runLast c i arg2 harg2 arg3 harg3 arg4 harg4 arg5 harg5 hf hl x0 x1 xs).2.1

theorem outLast_cover (hf : ¬isFirst i) (hl : isLast i) (x0 x1 : Vec F S1x1x128x80x80 .f32) (xs : Vec F S128x128 .f32) (y : S1x128x128.Idx) :
    ∃ pc ∈ (runLast c i arg2 harg2 arg3 harg3 arg4 harg4 arg5 harg5 hf hl x0 x1 xs).1, y ∈ pc.1.set :=
  View.cover_of_tiledL (runLast c i arg2 harg2 arg3 harg3 arg4 harg4 arg5 harg5 hf hl x0 x1 xs).1 S1x128x128.size (by sl_kernel_rfl) y
/-- What a run of the last kind stores into the output block. -/
def outLast (hf : ¬isFirst i) (hl : isLast i) (x0 x1 : Vec F S1x1x128x80x80 .f32) (xs : Vec F S128x128 .f32) : Vec F S1x128x128 .f32 :=
  View.canon (runLast c i arg2 harg2 arg3 harg3 arg4 harg4 arg5 harg5 hf hl x0 x1 xs).1

end Pieces

/-! ## The accumulator point by point -/

theorem notLast_of (t : Fin cfg0.N) (h : t.val % 16 = 0) : ¬isLast (grid0.coords t) :=
  fun hl => by have := (isLast_iff t).mp hl; omega
theorem notFirst_of (t : Fin cfg0.N) (h : ¬t.val % 16 = 0) : ¬isFirst (grid0.coords t) :=
  fun hf => h ((isFirst_iff t).mp hf)
theorem notLast_of' (t : Fin cfg0.N) (h : ¬t.val % 16 = 15) : ¬isLast (grid0.coords t) :=
  fun hl => h ((isLast_iff t).mp hl)

/-- THE ACCUMULATION: the accumulator after the body at position `n`. -/
def accAt (c : Dev nD) : (n : ℕ) → n < cfg0.N → Vec F S128x128 .f32
  | 0, hn => accFirst c (grid0.coords ⟨0, hn⟩) (mx ⟨0, hn⟩) (hmx ⟨0, hn⟩) (mxt ⟨0, hn⟩) (hmxt ⟨0, hn⟩) (mo ⟨0, hn⟩) (hmo ⟨0, hn⟩) accM (Memref.isWhole_whole _) ((isFirst_iff ⟨0, hn⟩).mpr (Nat.zero_mod _)) (notLast_of ⟨0, hn⟩ (Nat.zero_mod _)) (blk V c 0 ⟨0, hn⟩) (blk V c 1 ⟨0, hn⟩)
  | n + 1, hn =>
    if h0 : (n + 1) % 16 = 0 then
      accFirst c (grid0.coords ⟨n + 1, hn⟩) (mx ⟨n + 1, hn⟩) (hmx ⟨n + 1, hn⟩) (mxt ⟨n + 1, hn⟩) (hmxt ⟨n + 1, hn⟩) (mo ⟨n + 1, hn⟩) (hmo ⟨n + 1, hn⟩) accM (Memref.isWhole_whole _) ((isFirst_iff ⟨n + 1, hn⟩).mpr h0) (notLast_of ⟨n + 1, hn⟩ h0) (blk V c 0 ⟨n + 1, hn⟩) (blk V c 1 ⟨n + 1, hn⟩)
    else if h1 : (n + 1) % 16 = 15 then
      accLast c (grid0.coords ⟨n + 1, hn⟩) (mx ⟨n + 1, hn⟩) (hmx ⟨n + 1, hn⟩) (mxt ⟨n + 1, hn⟩) (hmxt ⟨n + 1, hn⟩) (mo ⟨n + 1, hn⟩) (hmo ⟨n + 1, hn⟩) accM (Memref.isWhole_whole _) (notFirst_of ⟨n + 1, hn⟩ h0) ((isLast_iff ⟨n + 1, hn⟩).mpr h1) (blk V c 0 ⟨n + 1, hn⟩) (blk V c 1 ⟨n + 1, hn⟩) (accAt c n (Nat.lt_of_succ_lt hn))
    else
      accMiddle c (grid0.coords ⟨n + 1, hn⟩) (mx ⟨n + 1, hn⟩) (hmx ⟨n + 1, hn⟩) (mxt ⟨n + 1, hn⟩) (hmxt ⟨n + 1, hn⟩) (mo ⟨n + 1, hn⟩) (hmo ⟨n + 1, hn⟩) accM (Memref.isWhole_whole _) (notFirst_of ⟨n + 1, hn⟩ h0) (notLast_of' ⟨n + 1, hn⟩ h1) (blk V c 0 ⟨n + 1, hn⟩) (blk V c 1 ⟨n + 1, hn⟩) (accAt c n (Nat.lt_of_succ_lt hn))

/-- The accumulator before point `t` when `t` is not the first position: what the position before left. -/
abbrev accBefore (c : Dev nD) (t : Fin cfg0.N) : Vec F S128x128 .f32 :=
  accAt V c (t.val - 1) (Nat.lt_of_le_of_lt (Nat.sub_le _ _) t.isLt)

theorem accAt_first (c : Dev nD) (t : Fin cfg0.N) (h0 : t.val % 16 = 0) :
    accAt V c t.val t.isLt = accFirst c (grid0.coords t) (mx t) (hmx t) (mxt t) (hmxt t) (mo t) (hmo t) accM (Memref.isWhole_whole _) ((isFirst_iff t).mpr h0) (notLast_of t h0) (blk V c 0 t) (blk V c 1 t) := by
  obtain ⟨n, hn⟩ := t
  cases n with
  | zero => exact rfl
  | succ n => exact (dif_pos h0).trans rfl

theorem accAt_middle (c : Dev nD) (t : Fin cfg0.N) (h0 : ¬t.val % 16 = 0) (h1 : ¬t.val % 16 = 15) :
    accAt V c t.val t.isLt = accMiddle c (grid0.coords t) (mx t) (hmx t) (mxt t) (hmxt t) (mo t) (hmo t) accM (Memref.isWhole_whole _) (notFirst_of t h0) (notLast_of' t h1) (blk V c 0 t) (blk V c 1 t) (accBefore V c t) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 16 = 0) (h1 : t.val % 16 = 15) :
    accAt V c t.val t.isLt = accLast c (grid0.coords t) (mx t) (hmx t) (mxt t) (hmxt t) (mo t) (hmo t) accM (Memref.isWhole_whole _) (notFirst_of t h0) ((isLast_iff t).mpr h1) (blk V c 0 t) (blk V c 1 t) (accBefore V c t) := by
  obtain ⟨n, hn⟩ := t
  cases n with
  | zero => exact absurd (Nat.zero_mod _) h0
  | succ n => exact (dif_neg h0).trans ((dif_pos h1).trans rfl)

/-- The output's staging buffer after the body at `t`: at c = 15 what the last kind of run stores, from the accumulator of
    the position before; elsewhere the window is idle and this value is a placeholder nothing reads. -/
def outAt (c : Dev nD) (t : Fin cfg0.N) : Vec F S1x128x128 .f32 :=
  if h1 : t.val % 16 = 15 then
    outLast c (grid0.coords t) (mx t) (hmx t) (mxt t) (hmxt t) (mo t) (hmo t) accM (Memref.isWhole_whole _) (notFirst_of t (by omega)) ((isLast_iff t).mpr h1) (blk V c 0 t) (blk V c 1 t) (accBefore V c t)
  else outV.read (Elt F) outV.junk

theorem outAt_last (c : Dev nD) (t : Fin cfg0.N) (h0 : ¬t.val % 16 = 0) (h1 : t.val % 16 = 15) :
    outAt V c t = outLast c (grid0.coords t) (mx t) (hmx t) (mxt t) (hmxt t) (mo t) (hmo t) accM (Memref.isWhole_whole _) (notFirst_of t h0) ((isLast_iff t).mpr h1) (blk V c 0 t) (blk V c 1 t) (accBefore V c t) := by
  unfold outAt; exact dif_pos h1

/-! ## The region's state between points -/

/-- Before position `n`: at the start the resting invariant; afterwards the accumulator at what the position before left,
    the untouched scoped buffers, the generator register. -/
def restAt (c : Dev nD) : (n : ℕ) → n ≤ cfg0.N → sProp 𝕄
  | 0, _ => Pipeline.ΦA spec0 c
  | n + 1, hn => iprop((owns (c : Thread nD τ) accM fullShare (accAt V c n hn) ∗ idleBufs c) ∗ (∃ r, prngReg c r))

theorem restAt_zero (c : Dev nD) (n : ℕ) (h : n ≤ cfg0.N) (hz : n = 0) : restAt V c n h = Pipeline.ΦA spec0 c := by
  subst hz; rfl

theorem restAt_succ (c : Dev nD) (n : ℕ) (hn : n < cfg0.N) :
    restAt V c (n + 1) hn = iprop((owns (c : Thread nD τ) accM fullShare (accAt V c n hn) ∗ idleBufs c) ∗ (∃ r, prngReg c r)) := rfl

theorem restAt_pos (c : Dev nD) (n : ℕ) (h : n ≤ cfg0.N) (hz : n ≠ 0) :
    restAt V c n h = iprop((owns (c : Thread nD τ) accM fullShare (accAt V c (n - 1) (by omega)) ∗ idleBufs c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outAt V c t
  Φ t := restAt V c t.val (Nat.le_of_lt_succ t.isLt)
  q _ := fullShare
  owed _ := 0

theorem A_eq (c : Dev nD) (w : Fin cfg0.W) : (dat V c).A w = V c (Pipeline.arrRef spec0 w) := by
  dsimp only [dat]

theorem rest_castSucc (c : Dev nD) (t : Fin cfg0.N) :
    (dat V c).Φ t.castSucc = restAt V c t.val (Nat.le_of_lt t.isLt) := by
  dsimp only [dat]; simp only [Fin.coe_castSucc]

theorem after_x (c : Dev nD) (t : Fin cfg0.N) : (dat V c).after 0 t = blk V c 0 t := by dsimp only [dat]
theorem after_xt (c : Dev nD) (t : Fin cfg0.N) : (dat V c).after 1 t = blk V c 1 t := by dsimp only [dat]
theorem after_out (c : Dev nD) (t : Fin cfg0.N) : (dat V c).after 2 t = outAt V c t := by dsimp only [dat]

theorem before_x (c : Dev nD) (t : Fin cfg0.N) (d) : (dat V c).before 0 t d = blk V c 0 t :=
  before_x_of V (dat V c) (A_eq V c 0) (after_x V c) t d
theorem before_xt (c : Dev nD) (t : Fin cfg0.N) (d) : (dat V c).before 1 t d = blk V c 1 t :=
  before_xt_of V (dat V c) (A_eq V c 1) (after_xt V c) t d

end Cert.Kernel.Scores

end
-- ==== Proof.Bits.ScoresBody.lean ====
/- The scores region's body obligation: at every point, from the region's state before the point, the two input
   buffers at their blocks and the output buffer as it stands, the body runs to the region's state after the point.
   By cases on c: at c = 0 the accumulator's earlier contents are irrelevant (it is cleared), so the state before
   the point gives it up at whatever it holds; at the other points it is handed over at what the point before left.
   Away from c = 15 the output buffer is handed back as found; at c = 15 it ends at the stored softmax. -/
import proofs.«171464_j53326313947744_1_alg».proof.Proof.Bits.ScoresData

set_option maxRecDepth 16384

noncomputable section

namespace Cert.Kernel.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mxt t) fullShare ((dat V c).before 1 t d))
    ∗ (∃ d, owns (c : Thread nD τ) (mo t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_xt]
  rw [show (dat V c).owesAt () t.succ = (dat V c).owesAt () t.castSucc from rfl]
  rw [show (dat V c).Φ t.succ = restAt V c (t.val + 1) t.isLt from rfl, restAt_succ]
  rw [show (dat V c).leavesExact 0 t = owns (c : Thread nD τ) (mx t) fullShare ((dat V c).after 0 t) from by
    unfold Dat.leavesExact; rw [live_x t], after_x]
  rw [show (dat V c).leavesExact 1 t = owns (c : Thread nD τ) (mxt t) fullShare ((dat V c).after 1 t) from by
    unfold Dat.leavesExact; rw [live_xt t], after_xt]
  have hN : t.val < 32 := lt_of_lt_of_eq t.isLt (show cfg0.N = 32 from N_0)
  by_cases h0 : t.val % 16 = 0
  · -- c = 0: the accumulator is cleared, whatever it held
    have hl := notLast_of t h0
    rw [Dat.leavesExact_idle (dat V c) 2 t (idle_out t hl) (noFlush_out t hl)]
    rw [accAt_first V c t h0]
    unfold accFirst; (try dsimp only)
    by_cases hz : t.val = 0
    · rw [rest_castSucc V c t, restAt_zero V c _ _ hz, rest_eq]
      iintro ⟨⟨⟨HS, Hi⟩, Hg⟩, Ho, ⟨%d0, H0⟩, ⟨%d1, H1⟩, ⟨%d2, H2⟩⟩
      iapply ((runFirst c (grid0.coords t) _ _ _ _ _ _ _ _ ((isFirst_iff t).mpr h0) hl (blk V c 0 t) (blk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_eq_canon _ _ _ (accFirst_cover c _ _ _ _ _ _ _ _ _ _ _ _ _ )
          iexact Hi
        iexact Hg
      isplitl [Ho]; · iexact Ho
      isplitl [H0]; · iexact H0
      isplitl [H1]; · iexact H1
      iexists _; iexact H2
    · rw [rest_castSucc V c t, restAt_pos V c _ _ hz]
      iintro ⟨⟨⟨HS, Hi⟩, Hg⟩, Ho, ⟨%d0, H0⟩, ⟨%d1, H1⟩, ⟨%d2, H2⟩⟩
      iapply ((runFirst c (grid0.coords t) _ _ _ _ _ _ _ _ ((isFirst_iff t).mpr h0) hl (blk V c 0 t) (blk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_eq_canon _ _ _ (accFirst_cover c _ _ _ _ _ _ _ _ _ _ _ _ _ )
          iexact Hi
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · -- c = 15: accumulate, then store the softmax over the whole output block
      have hl := (isLast_iff t).mpr h1
      rw [show (dat V c).leavesExact 2 t = owns (c : Thread nD τ) (mo t) fullShare ((dat V c).after 2 t) from by
        unfold Dat.leavesExact; rw [live_out t hl], after_out]
      rw [accAt_last V c t h0 h1, outAt_last V c t h0 h1]
      unfold accLast outLast; (try dsimp only)
      rw [rest_castSucc V c t, restAt_pos V c _ _ hz]
      iintro ⟨⟨⟨HS, Hi⟩, Hg⟩, Ho, ⟨%d0, H0⟩, ⟨%d1, H1⟩, ⟨%d2, H2⟩⟩
      iapply ((runLast c (grid0.coords t) _ _ _ _ _ _ _ _ (notFirst_of t h0) hl (blk V c 0 t) (blk V c 1 t) (accBefore V c t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hi Hg]
      · isplitl [HS Hi]
        · isplitl [HS]
          · unfold owns; iexists _; isplitr
            swap; · iexact HS
            ipureintro; exact View.read_writes_eq_canon _ _ _ (accLast_cover c _ _ _ _ _ _ _ _ _ _ _ _ _ _ )
          iexact Hi
        iexact Hg
      isplitl [Ho]; · iexact Ho
      isplitl [H0]; · iexact H0
      isplitl [H1]; · iexact H1
      unfold owns; iexists _; isplitr
      swap; · iexact H2
      ipureintro; exact View.read_writes_eq_canon _ _ _ (outLast_cover c _ _ _ _ _ _ _ _ _ _ _ _ _ _)
    · -- 0 < c < 15: accumulate
      have hl := notLast_of' t h1
      rw [Dat.leavesExact_idle (dat V c) 2 t (idle_out t hl) (noFlush_out t hl)]
      rw [accAt_middle V c t h0 h1]
      unfold accMiddle; (try dsimp only)
      rw [rest_castSucc V c t, restAt_pos V c _ _ hz]
      iintro ⟨⟨⟨HS, Hi⟩, Hg⟩, Ho, ⟨%d0, H0⟩, ⟨%d1, H1⟩, ⟨%d2, H2⟩⟩
      iapply ((runMiddle c (grid0.coords t) _ _ _ _ _ _ _ _ (notFirst_of t h0) hl (blk V c 0 t) (blk V c 1 t) (accBefore V c t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_eq_canon _ _ _ (accMiddle_cover c _ _ _ _ _ _ _ _ _ _ _ _ _ _ )
          iexact Hi
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact body_at V c t

/-- What the launch hands the region is the state before the first point. -/
theorem rest_in (c : Dev nD) : Pipeline.ΦA spec0 c ⊢ (dat V c).Φ 0 := by
  rw [show (dat V c).Φ 0 = restAt V c 0 (Nat.zero_le _) from rfl, restAt_zero V c 0 _ rfl]
  try exact Idealize.SL.BI.Entails.refl _

/-- After the last point the state gives the resting invariant back: the accumulator's contents are forgotten. -/
theorem rest_out (c : Dev nD) : (dat V c).Φ (Fin.last cfg0.N) ⊢ Pipeline.ΦA spec0 c := by
  have hN : cfg0.N = 32 := N_0
  rw [show (dat V c).Φ (Fin.last cfg0.N) = restAt V c (Fin.last cfg0.N).val (Nat.le_of_lt_succ (Fin.last cfg0.N).isLt) from rfl,
    restAt_pos V c _ _ (by rw [Fin.val_last]; omega), rest_eq]
  iintro ⟨⟨HS, Hi⟩, Hg⟩
  isplitl [HS Hi]
  · isplitl [HS]
    · iexists _; iexact HS
    iexact Hi
  iexact Hg

end Cert.Kernel.Scores

end
-- ==== Proof.Bits.Outv.lean ====
/- The second region (the pallas_call that applies the attention matrix): a grid of 2 × 16 points (b, c). At each
   point the body loads the 128 × 128 block of the attention array for batch b and the 128 × 80 × 80 block (b, c)
   of the third argument, multiplies the first by the second flattened to 128 × 6400, and stores the product,
   reshaped back, over the whole output block (b, c). Everything here is stated at the contents `V` the core's
   buffers hold when the region is entered: each window's block at a point, what the body leaves in the output's
   staging buffer, the body's run, the region's proof data and its obligation at every point. -/
import proofs.«171464_j53326313947744_1_alg».proof.Proof.Gen.Kernel.Launch
import proofs.«171464_j53326313947744_1_alg».proof.Proof.Gen.Kernel.Skeleton
import proofs.«171464_j53326313947744_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Outv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention window's buffer holds block b at every point (b, c): it is fetched at c = 0 only, and its block index
    does not move while c runs. -/
theorem before_attn_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The g_x window's buffer holds block (b, c) at point (b, c). -/
theorem before_g_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses and what it leaves in the output block -/

abbrev rAttn : Rect S1x128x128 := Rect.unit (s := S1x128x128) ![0, 0, 0] S1x128x128.size inb_S1x128x128_S1x128x128_0_0_0
abbrev rTile : Rect S1x1x128x80x80 := Rect.unit (s := S1x1x128x80x80) ![0, 0, 0, 0, 0] S1x1x128x80x80.size inb_S1x1x128x80x80_S1x1x128x80x80_0_0_0_0_0

/-- The output's staging buffer after the body: its one store, of the product of the two loaded blocks, over the whole block. -/
def outBlock (a : Vec F S1x128x128 .f32) (g : Vec F S1x1x128x80x80 .f32) : Vec F S1x1x128x80x80 .f32 :=
  View.canon [⟨rTile, k1_pay1 (View.ld a rAttn) (View.ld g rTile)⟩]

/-- That store's rectangle is the whole block. -/
theorem outBlock_cover (p0 : Vec F S1x1x128x80x80 .f32) (y : S1x1x128x80x80.Idx) :
    ∃ pc ∈ ([⟨rTile, p0⟩] : List (View.Piece (Elt F) S1x1x128x80x80 .f32)), y ∈ pc.1.set :=
  View.cover_of_tiled [⟨rTile, p0⟩] S1x1x128x80x80.size (by rfl) y

/-! ## The body's run -/

set_option maxHeartbeats 1000000 in
/-- On whole staging memrefs, the inputs' at contents `a` and `g` and the output's at anything, the body runs to the
    continuation with the inputs' as they were and the output's at `outBlock a g`. -/
theorem body_run (c : Dev nD) (E : Set ℕ) (i : grid1.Coords) (arg2 : Memref sig .tc .vmem S1x128x128 .f32) (harg2 : arg2.IsWhole) (arg3 : Memref sig .tc .vmem S1x1x128x80x80 .f32) (harg3 : arg3.IsWhole) (arg4 : Memref sig .tc .vmem S1x1x128x80x80 .f32) (harg4 : arg4.IsWhole)
    (a : Vec F S1x128x128 .f32) (g : Vec F S1x1x128x80x80 .f32) (K : PUnit → sProp 𝕄) :
    iprop(owns (c : Thread nD τ) arg2 fullShare a ∗ owns (c : Thread nD τ) arg3 fullShare g ∗ (∃ d, owns (c : Thread nD τ) arg4 fullShare d)
        ∗ (iprop(owns (c : Thread nD τ) arg2 fullShare a ∗ owns (c : Thread nD τ) arg3 fullShare g ∗ owns (c : Thread nD τ) arg4 fullShare (outBlock a g)) -∗ K ⟨⟩))
      ⊢ wp frame (wpE (defs₀ (F := F)) Variants.none c none) E (cc1__outv_kernel i arg2 harg2 arg3 harg3 arg4 harg4) K := by
  simp only [cc1__outv_kernel_eq_skeleton]; unfold cc1__outv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlock_cover _)

/-! ## The region's proof data -/

/-- The arrays as the region finds them; after the body at point `t` each input's buffer at its block and the output's at
    `outBlock` of the two blocks; between points the region holds only the scoped buffers it never touches and the generator
    register; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_attn (c : Dev nD) (t : Fin cfg1.N) : (dat V c).after 0 t = blk V c 0 t := by dsimp only [dat]
theorem after_g (c : Dev nD) (t : Fin cfg1.N) : (dat V c).after 1 t = blk V c 1 t := by dsimp only [dat]
theorem after_out (c : Dev nD) (t : Fin cfg1.N) : (dat V c).after 2 t = outBlock (blk V c 0 t) (blk V c 1 t) := by dsimp only [dat]

theorem before_attn (c : Dev nD) (t : Fin cfg1.N) (d) : (dat V c).before 0 t d = blk V c 0 t :=
  before_attn_of V (dat V c) (A_eq V c 0) (after_attn V c) t d
theorem before_g (c : Dev nD) (t : Fin cfg1.N) (d) : (dat V c).before 1 t d = blk V c 1 t :=
  before_g_of V (dat V c) (A_eq V c 1) (after_g V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- At any point the two input buffers hold their blocks, so the body's run applies; the region's resting state and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_attn, before_g]
  rw [show (dat V c).Φ t.succ = (dat V c).Φ t.castSucc from rfl,
    show (dat V c).owesAt () t.succ = (dat V c).owesAt () t.castSucc from rfl,
    after_attn, after_g, after_out]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact body_at V c t

end Cert.Kernel.Outv

end
-- ==== Proof.Bits.Run.lean ====
/- The whole program as two regions in a row, and its run. The core's unscoped buffers start at the launch memory;
   the scores region leaves its output array (the attention matrices) at what its write-backs compose to and every
   other buffer as it was; the second region, entered from those contents, does the same for the result array. The
   run theorem says: every weakly fair execution terminates, the result array ends at the second region's composed
   write-backs (over the first region's), and the three argument arrays end as launched, since each is only ever an
   input window's array or bypasses a region. -/
import proofs.«171464_j53326313947744_1_alg».proof.Proof.Bits.ScoresBody
import proofs.«171464_j53326313947744_1_alg».proof.Proof.Bits.Outv

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the scores region: its arrays at what the pipeline leaves, every other buffer as entered. -/
def W1 (c : Dev nD) : Valuation τ sig (Elt F) :=
  Pipeline.withArrays spec0 c (W0 m ρ c) fun w => (Scores.dat (V0 m ρ) c).arrAt w cfg0.N
theorem W1_arr (c : Dev nD) (w : Fin cfg0.W) :
    W1 m ρ c (Proc.devRef .tc (Pipeline.arrRef spec0 w)) = (Scores.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Scores.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region. -/
def W2 (c : Dev nD) : Valuation τ sig (Elt F) :=
  Pipeline.withArrays spec1 c (W1 m ρ c) fun w => (Outv.dat (V1 m ρ) c).arrAt w cfg1.N
theorem W2_arr (c : Dev nD) (w : Fin cfg1.W) :
    W2 m ρ c (Proc.devRef .tc (Pipeline.arrRef spec1 w)) = (Outv.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (Outv.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, the result at the second region's write-backs -/

/-- x_ is the scores region's first input and bypasses the second region. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((Scores.dat (V0 m ρ) c).arrAt_in 0 rfl _).trans (Scores.A_eq (V0 m ρ) c 0))
    _ = m ((c : Thread nD τ).loc main_arg0) := rfl
/-- x_t is the scores region's second input and bypasses the second region. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((Scores.dat (V0 m ρ) c).arrAt_in 1 rfl _).trans (Scores.A_eq (V0 m ρ) c 1))
    _ = m ((c : Thread nD τ).loc main_arg1) := rfl
/-- g_x bypasses the scores region and is the second region's second input. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 1).trans (((Outv.dat (V1 m ρ) c).arrAt_in 1 rfl _).trans (Outv.A_eq (V1 m ρ) c 1))
    _ = W0 m ρ c (Proc.devRef .tc main_arg2) := W1_of_ne m ρ c main_arg2 (by decide)
    _ = m ((c : Thread nD τ).loc main_arg2) := rfl
/-- The result array ends at what the second region's write-backs compose to. -/
theorem W2_main_v1 (c : Dev nD) : W2 m ρ c (Proc.devRef .tc main_v1) = (Outv.dat (V1 m ρ) c).arrAt 2 cfg1.N := W2_arr m ρ c 2
/-- The second region finds the attention array at what the scores region's write-backs compose to, -/
theorem V1_main_v0 (c : Dev nD) : V1 m ρ c main_v0 = (Scores.dat (V0 m ρ) c).arrAt 2 cfg0.N := W1_arr m ρ c 2
/-- and g_x as launched. -/
theorem V1_main_arg2 (c : Dev nD) : V1 m ρ c main_arg2 = m ((c : Thread nD τ).loc main_arg2) := W1_of_ne m ρ c main_arg2 (by decide)

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Scores.dat (V0 m ρ) c
  | ⟨1, _⟩ => fun c => Outv.dat (V1 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Scores.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Scores.rest_in (V0 m ρ) c)
    unfold Pipeline.ΦA
    iintro ⟨Hp, -, Hr⟩
    isplitl [Hr]; · iexact Hr
    iexact Hp
  hout c := by
    rw [Pipeline.ownSems0_none]
    refine (Scores.rest_out (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Outv.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting; the
    result array ends at the second region's composed write-backs and the argument arrays as launched. -/
theorem run : θ_run defs (onTc (τ := τ) (main (F := F))) ⟨m, fun _ => 0, ρ⟩ (fun r => ∀ c : Dev nD,
      r.2.mem ((c.tc : Thread nD τ).loc main_v1) = (Outv.dat (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Kernel.Run

end
-- ==== Proof.ScoresCases.lean ====
/- The scores region (the first pallas_call): a grid of 2 × 16 points (b, c). At c = 0 the 128 × 128
   accumulator is cleared, at every point the product of the two 128 × 6400 blocks (one against the
   other's transpose) is added to it, and at c = 15 its row-wise softmax is stored into the output block.
   This module fixes what the three kinds of point share: the two branch conditions in closed form over the
   32 points, where the output window is idle and where it is written back, the staging memrefs at a point,
   and the region's resting invariant spelt out buffer by buffer. -/
import proofs.«171464_j53326313947744_1_alg».proof.Proof.Gen.KernelIdeal.Launch
import proofs.«171464_j53326313947744_1_alg».proof.Proof.Gen.KernelIdeal.Skeleton
import proofs.«171464_j53326313947744_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- "c = 0": the accumulator is cleared at this point. -/
abbrev isFirst (i : grid0.Coords) : Prop :=
  (Scalar.cmpi .ne (Scalar.extui (Scalar.cmpi .eq (BitVec.ofNat 32 (i 1).val) 0#32)) 0#32) = 1#1
/-- Of the 32 points in row-major order these are the two with index ≡ 0 (mod 16). -/
theorem isFirst_iff : ∀ t : Fin cfg0.N, isFirst (grid0.coords t) ↔ t.val % 16 = 0 :=
  (by decide +kernel : ∀ t : Fin grid0.N, isFirst (grid0.coords t) ↔ t.val % 16 = 0)

/-- "c = 15": the softmax of the accumulator is stored at this point. -/
abbrev isLast (i : grid0.Coords) : Prop := k0_cond2 i = 1#1
/-- These are the two points with index ≡ 15 (mod 16). -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_x : ∀ t : Fin cfg0.N, cfg0.idle 0 (grid0.coords t) = false := by decide +kernel
theorem live_xt : ∀ t : Fin cfg0.N, cfg0.idle 1 (grid0.coords t) = false := by decide +kernel
/-- Away from c = 15 nothing is stored into the output block: the window is idle there, -/
theorem idle_out : ∀ t : Fin cfg0.N, ¬isLast (grid0.coords t) → cfg0.idle 2 (grid0.coords t) = true := by decide +kernel
/-- and its block is not written back there. -/
theorem noFlush_out : ∀ t : Fin cfg0.N, ¬isLast (grid0.coords t) → (cfg0.win 2).flush t = false := by decide +kernel
/-- At c = 15 it is live. -/
theorem live_out : ∀ t : Fin cfg0.N, isLast (grid0.coords t) → cfg0.idle 2 (grid0.coords t) = false := by decide +kernel

/-! ## The memrefs at a point -/

abbrev mx (t : Fin cfg0.N) : Memref sig .tc .vmem S1x1x128x80x80 .f32 := win0_0.stage (cfg0.slots t 0)
abbrev hmx (t : Fin cfg0.N) : (mx t).IsWhole := hstage0_0 ((cfg0.slots t 0).cast nbuf0_0)
abbrev mxt (t : Fin cfg0.N) : Memref sig .tc .vmem S1x1x128x80x80 .f32 := win0_1.stage (cfg0.slots t 1)
abbrev hmxt (t : Fin cfg0.N) : (mxt t).IsWhole := hstage0_1 ((cfg0.slots t 1).cast nbuf0_1)
abbrev mo (t : Fin cfg0.N) : Memref sig .tc .vmem S1x128x128 .f32 := win0_2.stage (cfg0.slots t 2)
abbrev hmo (t : Fin cfg0.N) : (mo t).IsWhole := hstage0_2 ((cfg0.slots t 2).cast nbuf0_2)
/-- The accumulator: a whole scoped buffer of the kernel's own. -/
abbrev accM : Memref sig .tc .vmem S128x128 .f32 := Memref.whole cc0_scratch0
abbrev accV : View sig .tc .vmem S128x128 .f32 := accM.view
/-- One staging buffer of the output window, through which its contents are stated. -/
abbrev outV : View sig .tc .vmem S1x128x128 .f32 := (Memref.whole cc0_stg2_0 : Memref sig .tc .vmem S1x128x128 .f32).view

/-! ## The resting invariant, buffer by buffer -/

/-- The scoped buffers the region never touches: the second region's six staging buffers, each whole at some contents. -/
def idleBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Outside the points the region holds the accumulator at some contents, those six buffers and the generator register. -/
theorem rest_eq (c : Dev nD) :
    (Pipeline.ΦA spec0 c : sProp 𝕄)
      = iprop(((∃ d, owns (c : Thread nD τ) accM fullShare d) ∗ idleBufs c) ∗ (∃ r, prngReg c r)) := by
  unfold Pipeline.ΦA idleBufs; rw [scopedRest0_eq]; simp only [accM, owns_whole]; try rfl

end Cert.KernelIdeal.Scores

end
-- ==== Proof.ScoresFirst.lean ====
/- The scores body at a point with c = 0 (and c ≠ 15): the accumulator, whatever it held, is overwritten with
   zeros, read back, and overwritten again with zeros plus the blocks' product; the output block is not touched.
   The theorem packaged here is the run itself: from the two input blocks at their contents, the output buffer at
   any contents (handed back as found) and the accumulator at anything, the body ends with the accumulator holding
   the pieces its two stores wrote, latest first. The list of pieces is left for the run to determine. -/
import proofs.«171464_j53326313947744_1_alg».proof.Proof.ScoresCases

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole) (hf : isFirst i) (hl : ¬isLast i)
    (x0 : Vec F S1x1x128x80x80 .f32) (x1 : Vec F S1x1x128x80x80 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Scores

end
-- ==== Proof.ScoresMiddle.lean ====
/- The scores body at a point with 0 < c < 15: the accumulator, holding what the point before left, is read and
   overwritten with itself plus the blocks' product; the output block is not touched. As for the first kind of
   point the theorem is the run, and the accumulator's pieces are left for the run to determine. -/
import proofs.«171464_j53326313947744_1_alg».proof.Proof.ScoresCases

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole) (hf : ¬isFirst i) (hl : ¬isLast i)
    (x0 : Vec F S1x1x128x80x80 .f32) (x1 : Vec F S1x1x128x80x80 .f32) (xs : Vec F S128x128 .f32) :
    Σ' (L2 : List (View.Piece (Elt F) S1x128x128 .f32)), { LS : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨[], ?_, fun xi2 E K => ?run⟩
  case run =>
    simp only [cc0__scores_kernel_eq_skeleton]; unfold cc0__scores_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Scores

end
-- ==== Proof.ScoresLast.lean ====
/- The scores body at a point with c = 15: the accumulator, holding what the point before left, is read and
   overwritten with itself plus the blocks' product, read once more, and its row-wise softmax is stored over the
   whole output block (whatever that held). The theorem is the run; both piece lists are left for it to determine. -/
import proofs.«171464_j53326313947744_1_alg».proof.Proof.ScoresCases

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole) (hf : ¬isFirst i) (hl : isLast i)
    (x0 : Vec F S1x1x128x80x80 .f32) (x1 : Vec F S1x1x128x80x80 .f32) (xs : Vec F S128x128 .f32) :
    Σ' (L2 : List (View.Piece (Elt F) S1x128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__scores_kernel i arg2 harg2 arg3 harg3 arg4 harg4 arg5 harg5) K } := by
  refine ⟨?_, ?_, fun E K => ?run⟩
  case run =>
    simp only [cc0__scores_kernel_eq_skeleton]; unfold cc0__scores_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Scores

end
-- ==== Proof.ScoresData.lean ====
/- The scores region's proof data, at the contents `V` the core's buffers hold when the region is entered.
   The accumulator after point n is defined by recursion on n: at a point with c = 0 it is what the first kind of
   run leaves (zeros plus the blocks' product), elsewhere what the middle or last kind leaves over the accumulator
   of the point before. The output block after a point with c = 15 is what the last kind of run stores, computed
   from the accumulator of the point before; at the other points the window is idle and its contents are not named.
   Between points the region holds the accumulator at those contents, beside the scoped buffers it never touches and
   the generator register. From these: the proof data, and the body obligation at every point by cases on c. -/
import proofs.«171464_j53326313947744_1_alg».proof.Proof.ScoresFirst
import proofs.«171464_j53326313947744_1_alg».proof.Proof.ScoresMiddle
import proofs.«171464_j53326313947744_1_alg».proof.Proof.ScoresLast

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_xt_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What each kind of run leaves -/

section Pieces
variable (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole)

/-- The accumulator's pieces after a run of the first kind tile it. -/
theorem accFirst_cover (hf : isFirst i) (hl : ¬isLast i) (x0 x1 : Vec F S1x1x128x80x80 .f32) (y : S128x128.Idx) :
    ∃ pc ∈ (runFirst c i arg2 harg2 arg3 harg3 arg4 harg4 arg5 harg5 hf hl x0 x1).2.1, y ∈ pc.1.set :=
  View.cover_of_tiledL (runFirst c i arg2 harg2 arg3 harg3 arg4 harg4 arg5 harg5 hf hl x0 x1).2.1 S128x128.size (by sl_kernel_rfl) y
/-- What a run of the first kind leaves in the accumulator. -/
def accFirst (hf : isFirst i) (hl : ¬isLast i) (x0 x1 : Vec F S1x1x128x80x80 .f32) : Vec F S128x128 .f32 :=
  View.canon (runFirst c i arg2 harg2 arg3 harg3 arg4 harg4 arg5 harg5 hf hl x0 x1).2.1

theorem accMiddle_cover (hf : ¬isFirst i) (hl : ¬isLast i) (x0 x1 : Vec F S1x1x128x80x80 .f32) (xs : Vec F S128x128 .f32) (y : S128x128.Idx) :
    ∃ pc ∈ (runMiddle c i arg2 harg2 arg3 harg3 arg4 harg4 arg5 harg5 hf hl x0 x1 xs).2.1, y ∈ pc.1.set :=
  View.cover_of_tiledL (runMiddle c i arg2 harg2 arg3 harg3 arg4 harg4 arg5 harg5 hf hl x0 x1 xs).2.1 S128x128.size (by sl_kernel_rfl) y
/-- What a run of the middle kind leaves in the accumulator, over `xs`. -/
def accMiddle (hf : ¬isFirst i) (hl : ¬isLast i) (x0 x1 : Vec F S1x1x128x80x80 .f32) (xs : Vec F S128x128 .f32) : Vec F S128x128 .f32 :=
  View.canon (runMiddle c i arg2 harg2 arg3 harg3 arg4 harg4 arg5 harg5 hf hl x0 x1 xs).2.1

theorem accLast_cover (hf : ¬isFirst i) (hl : isLast i) (x0 x1 : Vec F S1x1x128x80x80 .f32) (xs : Vec F S128x128 .f32) (y : S128x128.Idx) :
    ∃ pc ∈ (runLast c i arg2 harg2 arg3 harg3 arg4 harg4 arg5 harg5 hf hl x0 x1 xs).2.1, y ∈ pc.1.set :=
  View.cover_of_tiledL (runLast c i arg2 harg2 arg3 harg3 arg4 harg4 arg5 harg5 hf hl x0 x1 xs).2.1 S128x128.size (by sl_kernel_rfl) y
/-- What a run of the last kind leaves in the accumulator, over `xs`. -/
def accLast (hf : ¬isFirst i) (hl : isLast i) (x0 x1 : Vec F S1x1x128x80x80 .f32) (xs : Vec F S128x128 .f32) : Vec F S128x128 .f32 :=
  View.canon (runLast c i arg2 harg2 arg3 harg3 arg4 harg4 arg5 harg5 hf hl x0 x1 xs).2.1

theorem outLast_cover (hf : ¬isFirst i) (hl : isLast i) (x0 x1 : Vec F S1x1x128x80x80 .f32) (xs : Vec F S128x128 .f32) (y : S1x128x128.Idx) :
    ∃ pc ∈ (runLast c i arg2 harg2 arg3 harg3 arg4 harg4 arg5 harg5 hf hl x0 x1 xs).1, y ∈ pc.1.set :=
  View.cover_of_tiledL (runLast c i arg2 harg2 arg3 harg3 arg4 harg4 arg5 harg5 hf hl x0 x1 xs).1 S1x128x128.size (by sl_kernel_rfl) y
/-- What a run of the last kind stores into the output block. -/
def outLast (hf : ¬isFirst i) (hl : isLast i) (x0 x1 : Vec F S1x1x128x80x80 .f32) (xs : Vec F S128x128 .f32) : Vec F S1x128x128 .f32 :=
  View.canon (runLast c i arg2 harg2 arg3 harg3 arg4 harg4 arg5 harg5 hf hl x0 x1 xs).1

end Pieces

/-! ## The accumulator point by point -/

theorem notLast_of (t : Fin cfg0.N) (h : t.val % 16 = 0) : ¬isLast (grid0.coords t) :=
  fun hl => by have := (isLast_iff t).mp hl; omega
theorem notFirst_of (t : Fin cfg0.N) (h : ¬t.val % 16 = 0) : ¬isFirst (grid0.coords t) :=
  fun hf => h ((isFirst_iff t).mp hf)
theorem notLast_of' (t : Fin cfg0.N) (h : ¬t.val % 16 = 15) : ¬isLast (grid0.coords t) :=
  fun hl => h ((isLast_iff t).mp hl)

/-- THE ACCUMULATION: the accumulator after the body at position `n`. -/
def accAt (c : Dev nD) : (n : ℕ) → n < cfg0.N → Vec F S128x128 .f32
  | 0, hn => accFirst c (grid0.coords ⟨0, hn⟩) (mx ⟨0, hn⟩) (hmx ⟨0, hn⟩) (mxt ⟨0, hn⟩) (hmxt ⟨0, hn⟩) (mo ⟨0, hn⟩) (hmo ⟨0, hn⟩) accM (Memref.isWhole_whole _) ((isFirst_iff ⟨0, hn⟩).mpr (Nat.zero_mod _)) (notLast_of ⟨0, hn⟩ (Nat.zero_mod _)) (blk V c 0 ⟨0, hn⟩) (blk V c 1 ⟨0, hn⟩)
  | n + 1, hn =>
    if h0 : (n + 1) % 16 = 0 then
      accFirst c (grid0.coords ⟨n + 1, hn⟩) (mx ⟨n + 1, hn⟩) (hmx ⟨n + 1, hn⟩) (mxt ⟨n + 1, hn⟩) (hmxt ⟨n + 1, hn⟩) (mo ⟨n + 1, hn⟩) (hmo ⟨n + 1, hn⟩) accM (Memref.isWhole_whole _) ((isFirst_iff ⟨n + 1, hn⟩).mpr h0) (notLast_of ⟨n + 1, hn⟩ h0) (blk V c 0 ⟨n + 1, hn⟩) (blk V c 1 ⟨n + 1, hn⟩)
    else if h1 : (n + 1) % 16 = 15 then
      accLast c (grid0.coords ⟨n + 1, hn⟩) (mx ⟨n + 1, hn⟩) (hmx ⟨n + 1, hn⟩) (mxt ⟨n + 1, hn⟩) (hmxt ⟨n + 1, hn⟩) (mo ⟨n + 1, hn⟩) (hmo ⟨n + 1, hn⟩) accM (Memref.isWhole_whole _) (notFirst_of ⟨n + 1, hn⟩ h0) ((isLast_iff ⟨n + 1, hn⟩).mpr h1) (blk V c 0 ⟨n + 1, hn⟩) (blk V c 1 ⟨n + 1, hn⟩) (accAt c n (Nat.lt_of_succ_lt hn))
    else
      accMiddle c (grid0.coords ⟨n + 1, hn⟩) (mx ⟨n + 1, hn⟩) (hmx ⟨n + 1, hn⟩) (mxt ⟨n + 1, hn⟩) (hmxt ⟨n + 1, hn⟩) (mo ⟨n + 1, hn⟩) (hmo ⟨n + 1, hn⟩) accM (Memref.isWhole_whole _) (notFirst_of ⟨n + 1, hn⟩ h0) (notLast_of' ⟨n + 1, hn⟩ h1) (blk V c 0 ⟨n + 1, hn⟩) (blk V c 1 ⟨n + 1, hn⟩) (accAt c n (Nat.lt_of_succ_lt hn))

/-- The accumulator before point `t` when `t` is not the first position: what the position before left. -/
abbrev accBefore (c : Dev nD) (t : Fin cfg0.N) : Vec F S128x128 .f32 :=
  accAt V c (t.val - 1) (Nat.lt_of_le_of_lt (Nat.sub_le _ _) t.isLt)

theorem accAt_first (c : Dev nD) (t : Fin cfg0.N) (h0 : t.val % 16 = 0) :
    accAt V c t.val t.isLt = accFirst c (grid0.coords t) (mx t) (hmx t) (mxt t) (hmxt t) (mo t) (hmo t) accM (Memref.isWhole_whole _) ((isFirst_iff t).mpr h0) (notLast_of t h0) (blk V c 0 t) (blk V c 1 t) := by
  obtain ⟨n, hn⟩ := t
  cases n with
  | zero => exact rfl
  | succ n => exact (dif_pos h0).trans rfl

theorem accAt_middle (c : Dev nD) (t : Fin cfg0.N) (h0 : ¬t.val % 16 = 0) (h1 : ¬t.val % 16 = 15) :
    accAt V c t.val t.isLt = accMiddle c (grid0.coords t) (mx t) (hmx t) (mxt t) (hmxt t) (mo t) (hmo t) accM (Memref.isWhole_whole _) (notFirst_of t h0) (notLast_of' t h1) (blk V c 0 t) (blk V c 1 t) (accBefore V c t) := by
  obtain ⟨n, hn⟩ := t
  cases n with
  | zero => exact absurd (Nat.zero_mod _) h0
  | succ n => exact (dif_neg h0).trans ((dif_neg h1).trans rfl)

theorem accAt_last (c : Dev nD) (t : Fin cfg0.N) (h0 : ¬t.val % 16 = 0) (h1 : t.val % 16 = 15) :
    accAt V c t.val t.isLt = accLast c (grid0.coords t) (mx t) (hmx t) (mxt t) (hmxt t) (mo t) (hmo t) accM (Memref.isWhole_whole _) (notFirst_of t h0) ((isLast_iff t).mpr h1) (blk V c 0 t) (blk V c 1 t) (accBefore V c t) := by
  obtain ⟨n, hn⟩ := t
  cases n with
  | zero => exact absurd (Nat.zero_mod _) h0
  | succ n => exact (dif_neg h0).trans ((dif_pos h1).trans rfl)

/-- The output's staging buffer after the body at `t`: at c = 15 what the last kind of run stores, from the accumulator of
    the position before; elsewhere the window is idle and this value is a placeholder nothing reads. -/
def outAt (c : Dev nD) (t : Fin cfg0.N) : Vec F S1x128x128 .f32 :=
  if h1 : t.val % 16 = 15 then
    outLast c (grid0.coords t) (mx t) (hmx t) (mxt t) (hmxt t) (mo t) (hmo t) accM (Memref.isWhole_whole _) (notFirst_of t (by omega)) ((isLast_iff t).mpr h1) (blk V c 0 t) (blk V c 1 t) (accBefore V c t)
  else outV.read (Elt F) outV.junk

theorem outAt_last (c : Dev nD) (t : Fin cfg0.N) (h0 : ¬t.val % 16 = 0) (h1 : t.val % 16 = 15) :
    outAt V c t = outLast c (grid0.coords t) (mx t) (hmx t) (mxt t) (hmxt t) (mo t) (hmo t) accM (Memref.isWhole_whole _) (notFirst_of t h0) ((isLast_iff t).mpr h1) (blk V c 0 t) (blk V c 1 t) (accBefore V c t) := by
  unfold outAt; exact dif_pos h1

/-! ## The region's state between points -/

/-- Before position `n`: at the start the resting invariant; afterwards the accumulator at what the position before left,
    the untouched scoped buffers, the generator register. -/
def restAt (c : Dev nD) : (n : ℕ) → n ≤ cfg0.N → sProp 𝕄
  | 0, _ => Pipeline.ΦA spec0 c
  | n + 1, hn => iprop((owns (c : Thread nD τ) accM fullShare (accAt V c n hn) ∗ idleBufs c) ∗ (∃ r, prngReg c r))

theorem restAt_zero (c : Dev nD) (n : ℕ) (h : n ≤ cfg0.N) (hz : n = 0) : restAt V c n h = Pipeline.ΦA spec0 c := by
  subst hz; rfl

theorem restAt_succ (c : Dev nD) (n : ℕ) (hn : n < cfg0.N) :
    restAt V c (n + 1) hn = iprop((owns (c : Thread nD τ) accM fullShare (accAt V c n hn) ∗ idleBufs c) ∗ (∃ r, prngReg c r)) := rfl

theorem restAt_pos (c : Dev nD) (n : ℕ) (h : n ≤ cfg0.N) (hz : n ≠ 0) :
    restAt V c n h = iprop((owns (c : Thread nD τ) accM fullShare (accAt V c (n - 1) (by omega)) ∗ idleBufs c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outAt V c t
  Φ t := restAt V c t.val (Nat.le_of_lt_succ t.isLt)
  q _ := fullShare
  owed _ := 0

theorem A_eq (c : Dev nD) (w : Fin cfg0.W) : (dat V c).A w = V c (Pipeline.arrRef spec0 w) := by
  dsimp only [dat]

theorem rest_castSucc (c : Dev nD) (t : Fin cfg0.N) :
    (dat V c).Φ t.castSucc = restAt V c t.val (Nat.le_of_lt t.isLt) := by
  dsimp only [dat]; simp only [Fin.coe_castSucc]

theorem after_x (c : Dev nD) (t : Fin cfg0.N) : (dat V c).after 0 t = blk V c 0 t := by dsimp only [dat]
theorem after_xt (c : Dev nD) (t : Fin cfg0.N) : (dat V c).after 1 t = blk V c 1 t := by dsimp only [dat]
theorem after_out (c : Dev nD) (t : Fin cfg0.N) : (dat V c).after 2 t = outAt V c t := by dsimp only [dat]

theorem before_x (c : Dev nD) (t : Fin cfg0.N) (d) : (dat V c).before 0 t d = blk V c 0 t :=
  before_x_of V (dat V c) (A_eq V c 0) (after_x V c) t d
theorem before_xt (c : Dev nD) (t : Fin cfg0.N) (d) : (dat V c).before 1 t d = blk V c 1 t :=
  before_xt_of V (dat V c) (A_eq V c 1) (after_xt V c) t d

end Cert.KernelIdeal.Scores

end
-- ==== Proof.ScoresBody.lean ====
/- The scores region's body obligation: at every point, from the region's state before the point, the two input
   buffers at their blocks and the output buffer as it stands, the body runs to the region's state after the point.
   By cases on c: at c = 0 the accumulator's earlier contents are irrelevant (it is cleared), so the state before
   the point gives it up at whatever it holds; at the other points it is handed over at what the point before left.
   Away from c = 15 the output buffer is handed back as found; at c = 15 it ends at the stored softmax. -/
import proofs.«171464_j53326313947744_1_alg».proof.Proof.ScoresData

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mxt t) fullShare ((dat V c).before 1 t d))
    ∗ (∃ d, owns (c : Thread nD τ) (mo t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_xt]
  rw [show (dat V c).owesAt () t.succ = (dat V c).owesAt () t.castSucc from rfl]
  rw [show (dat V c).Φ t.succ = restAt V c (t.val + 1) t.isLt from rfl, restAt_succ]
  rw [show (dat V c).leavesExact 0 t = owns (c : Thread nD τ) (mx t) fullShare ((dat V c).after 0 t) from by
    unfold Dat.leavesExact; rw [live_x t], after_x]
  rw [show (dat V c).leavesExact 1 t = owns (c : Thread nD τ) (mxt t) fullShare ((dat V c).after 1 t) from by
    unfold Dat.leavesExact; rw [live_xt t], after_xt]
  have hN : t.val < 32 := lt_of_lt_of_eq t.isLt (show cfg0.N = 32 from N_0)
  by_cases h0 : t.val % 16 = 0
  · -- c = 0: the accumulator is cleared, whatever it held
    have hl := notLast_of t h0
    rw [Dat.leavesExact_idle (dat V c) 2 t (idle_out t hl) (noFlush_out t hl)]
    rw [accAt_first V c t h0]
    unfold accFirst; (try dsimp only)
    by_cases hz : t.val = 0
    · rw [rest_castSucc V c t, restAt_zero V c _ _ hz, rest_eq]
      iintro ⟨⟨⟨HS, Hi⟩, Hg⟩, Ho, ⟨%d0, H0⟩, ⟨%d1, H1⟩, ⟨%d2, H2⟩⟩
      iapply ((runFirst c (grid0.coords t) _ _ _ _ _ _ _ _ ((isFirst_iff t).mpr h0) hl (blk V c 0 t) (blk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_eq_canon _ _ _ (accFirst_cover c _ _ _ _ _ _ _ _ _ _ _ _ _ )
          iexact Hi
        iexact Hg
      isplitl [Ho]; · iexact Ho
      isplitl [H0]; · iexact H0
      isplitl [H1]; · iexact H1
      iexists _; iexact H2
    · rw [rest_castSucc V c t, restAt_pos V c _ _ hz]
      iintro ⟨⟨⟨HS, Hi⟩, Hg⟩, Ho, ⟨%d0, H0⟩, ⟨%d1, H1⟩, ⟨%d2, H2⟩⟩
      iapply ((runFirst c (grid0.coords t) _ _ _ _ _ _ _ _ ((isFirst_iff t).mpr h0) hl (blk V c 0 t) (blk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_eq_canon _ _ _ (accFirst_cover c _ _ _ _ _ _ _ _ _ _ _ _ _ )
          iexact Hi
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · -- c = 15: accumulate, then store the softmax over the whole output block
      have hl := (isLast_iff t).mpr h1
      rw [show (dat V c).leavesExact 2 t = owns (c : Thread nD τ) (mo t) fullShare ((dat V c).after 2 t) from by
        unfold Dat.leavesExact; rw [live_out t hl], after_out]
      rw [accAt_last V c t h0 h1, outAt_last V c t h0 h1]
      unfold accLast outLast; (try dsimp only)
      rw [rest_castSucc V c t, restAt_pos V c _ _ hz]
      iintro ⟨⟨⟨HS, Hi⟩, Hg⟩, Ho, ⟨%d0, H0⟩, ⟨%d1, H1⟩, ⟨%d2, H2⟩⟩
      iapply ((runLast c (grid0.coords t) _ _ _ _ _ _ _ _ (notFirst_of t h0) hl (blk V c 0 t) (blk V c 1 t) (accBefore V c t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hi Hg]
      · isplitl [HS Hi]
        · isplitl [HS]
          · unfold owns; iexists _; isplitr
            swap; · iexact HS
            ipureintro; exact View.read_writes_eq_canon _ _ _ (accLast_cover c _ _ _ _ _ _ _ _ _ _ _ _ _ _ )
          iexact Hi
        iexact Hg
      isplitl [Ho]; · iexact Ho
      isplitl [H0]; · iexact H0
      isplitl [H1]; · iexact H1
      unfold owns; iexists _; isplitr
      swap; · iexact H2
      ipureintro; exact View.read_writes_eq_canon _ _ _ (outLast_cover c _ _ _ _ _ _ _ _ _ _ _ _ _ _)
    · -- 0 < c < 15: accumulate
      have hl := notLast_of' t h1
      rw [Dat.leavesExact_idle (dat V c) 2 t (idle_out t hl) (noFlush_out t hl)]
      rw [accAt_middle V c t h0 h1]
      unfold accMiddle; (try dsimp only)
      rw [rest_castSucc V c t, restAt_pos V c _ _ hz]
      iintro ⟨⟨⟨HS, Hi⟩, Hg⟩, Ho, ⟨%d0, H0⟩, ⟨%d1, H1⟩, ⟨%d2, H2⟩⟩
      iapply ((runMiddle c (grid0.coords t) _ _ _ _ _ _ _ _ (notFirst_of t h0) hl (blk V c 0 t) (blk V c 1 t) (accBefore V c t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hi Hg]
      · isplitl [HS Hi]
        · isplitl [HS]
          · unfold owns; iexists _; isplitr
            swap; · iexact HS
            ipureintro; exact View.read_writes_eq_canon _ _ _ (accMiddle_cover c _ _ _ _ _ _ _ _ _ _ _ _ _ _ )
          iexact Hi
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact body_at V c t

/-- What the launch hands the region is the state before the first point. -/
theorem rest_in (c : Dev nD) : Pipeline.ΦA spec0 c ⊢ (dat V c).Φ 0 := by
  rw [show (dat V c).Φ 0 = restAt V c 0 (Nat.zero_le _) from rfl, restAt_zero V c 0 _ rfl]
  try exact Idealize.SL.BI.Entails.refl _

/-- After the last point the state gives the resting invariant back: the accumulator's contents are forgotten. -/
theorem rest_out (c : Dev nD) : (dat V c).Φ (Fin.last cfg0.N) ⊢ Pipeline.ΦA spec0 c := by
  have hN : cfg0.N = 32 := N_0
  rw [show (dat V c).Φ (Fin.last cfg0.N) = restAt V c (Fin.last cfg0.N).val (Nat.le_of_lt_succ (Fin.last cfg0.N).isLt) from rfl,
    restAt_pos V c _ _ (by rw [Fin.val_last]; omega), rest_eq]
  iintro ⟨⟨HS, Hi⟩, Hg⟩
  isplitl [HS Hi]
  · isplitl [HS]
    · iexists _; iexact HS
    iexact Hi
  iexact Hg

end Cert.KernelIdeal.Scores

end
-- ==== Proof.Outv.lean ====
/- The second region (the pallas_call that applies the attention matrix): a grid of 2 × 16 points (b, c). At each
   point the body loads the 128 × 128 block of the attention array for batch b and the 128 × 80 × 80 block (b, c)
   of the third argument, multiplies the first by the second flattened to 128 × 6400, and stores the product,
   reshaped back, over the whole output block (b, c). Everything here is stated at the contents `V` the core's
   buffers hold when the region is entered: each window's block at a point, what the body leaves in the output's
   staging buffer, the body's run, the region's proof data and its obligation at every point. -/
import proofs.«171464_j53326313947744_1_alg».proof.Proof.Gen.KernelIdeal.Launch
import proofs.«171464_j53326313947744_1_alg».proof.Proof.Gen.KernelIdeal.Skeleton
import proofs.«171464_j53326313947744_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Outv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention window's buffer holds block b at every point (b, c): it is fetched at c = 0 only, and its block index
    does not move while c runs. -/
theorem before_attn_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The g_x window's buffer holds block (b, c) at point (b, c). -/
theorem before_g_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses and what it leaves in the output block -/

abbrev rAttn : Rect S1x128x128 := Rect.unit (s := S1x128x128) ![0, 0, 0] S1x128x128.size inb_S1x128x128_S1x128x128_0_0_0
abbrev rTile : Rect S1x1x128x80x80 := Rect.unit (s := S1x1x128x80x80) ![0, 0, 0, 0, 0] S1x1x128x80x80.size inb_S1x1x128x80x80_S1x1x128x80x80_0_0_0_0_0

/-- The output's staging buffer after the body: its one store, of the product of the two loaded blocks, over the whole block. -/
def outBlock (a : Vec F S1x128x128 .f32) (g : Vec F S1x1x128x80x80 .f32) : Vec F S1x1x128x80x80 .f32 :=
  View.canon [⟨rTile, k1_pay1 (View.ld a rAttn) (View.ld g rTile)⟩]

/-- That store's rectangle is the whole block. -/
theorem outBlock_cover (p0 : Vec F S1x1x128x80x80 .f32) (y : S1x1x128x80x80.Idx) :
    ∃ pc ∈ ([⟨rTile, p0⟩] : List (View.Piece (Elt F) S1x1x128x80x80 .f32)), y ∈ pc.1.set :=
  View.cover_of_tiled [⟨rTile, p0⟩] S1x1x128x80x80.size (by rfl) y

/-! ## The body's run -/

set_option maxHeartbeats 1000000 in
/-- On whole staging memrefs, the inputs' at contents `a` and `g` and the output's at anything, the body runs to the
    continuation with the inputs' as they were and the output's at `outBlock a g`. -/
theorem body_run (c : Dev nD) (E : Set ℕ) (i : grid1.Coords) (arg2 : Memref sig .tc .vmem S1x128x128 .f32) (harg2 : arg2.IsWhole) (arg3 : Memref sig .tc .vmem S1x1x128x80x80 .f32) (harg3 : arg3.IsWhole) (arg4 : Memref sig .tc .vmem S1x1x128x80x80 .f32) (harg4 : arg4.IsWhole)
    (a : Vec F S1x128x128 .f32) (g : Vec F S1x1x128x80x80 .f32) (K : PUnit → sProp 𝕄) :
    iprop(owns (c : Thread nD τ) arg2 fullShare a ∗ owns (c : Thread nD τ) arg3 fullShare g ∗ (∃ d, owns (c : Thread nD τ) arg4 fullShare d)
        ∗ (iprop(owns (c : Thread nD τ) arg2 fullShare a ∗ owns (c : Thread nD τ) arg3 fullShare g ∗ owns (c : Thread nD τ) arg4 fullShare (outBlock a g)) -∗ K ⟨⟩))
      ⊢ wp frame (wpE (defs₀ (F := F)) Variants.none c none) E (cc1__outv_kernel i arg2 harg2 arg3 harg3 arg4 harg4) K := by
  simp only [cc1__outv_kernel_eq_skeleton]; unfold cc1__outv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlock_cover _)

/-! ## The region's proof data -/

/-- The arrays as the region finds them; after the body at point `t` each input's buffer at its block and the output's at
    `outBlock` of the two blocks; between points the region holds only the scoped buffers it never touches and the generator
    register; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_attn (c : Dev nD) (t : Fin cfg1.N) : (dat V c).after 0 t = blk V c 0 t := by dsimp only [dat]
theorem after_g (c : Dev nD) (t : Fin cfg1.N) : (dat V c).after 1 t = blk V c 1 t := by dsimp only [dat]
theorem after_out (c : Dev nD) (t : Fin cfg1.N) : (dat V c).after 2 t = outBlock (blk V c 0 t) (blk V c 1 t) := by dsimp only [dat]

theorem before_attn (c : Dev nD) (t : Fin cfg1.N) (d) : (dat V c).before 0 t d = blk V c 0 t :=
  before_attn_of V (dat V c) (A_eq V c 0) (after_attn V c) t d
theorem before_g (c : Dev nD) (t : Fin cfg1.N) (d) : (dat V c).before 1 t d = blk V c 1 t :=
  before_g_of V (dat V c) (A_eq V c 1) (after_g V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- At any point the two input buffers hold their blocks, so the body's run applies; the region's resting state and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_attn, before_g]
  rw [show (dat V c).Φ t.succ = (dat V c).Φ t.castSucc from rfl,
    show (dat V c).owesAt () t.succ = (dat V c).owesAt () t.castSucc from rfl,
    after_attn, after_g, after_out]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact body_at V c t

end Cert.KernelIdeal.Outv

end
-- ==== Proof.Run.lean ====
/- The whole program as two regions in a row, and its run. The core's unscoped buffers start at the launch memory;
   the scores region leaves its output array (the attention matrices) at what its write-backs compose to and every
   other buffer as it was; the second region, entered from those contents, does the same for the result array. The
   run theorem says: every weakly fair execution terminates, the result array ends at the second region's composed
   write-backs (over the first region's), and the three argument arrays end as launched, since each is only ever an
   input window's array or bypasses a region. -/
import proofs.«171464_j53326313947744_1_alg».proof.Proof.ScoresBody
import proofs.«171464_j53326313947744_1_alg».proof.Proof.Outv

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the scores region: its arrays at what the pipeline leaves, every other buffer as entered. -/
def W1 (c : Dev nD) : Valuation τ sig (Elt F) :=
  Pipeline.withArrays spec0 c (W0 m ρ c) fun w => (Scores.dat (V0 m ρ) c).arrAt w cfg0.N
theorem W1_arr (c : Dev nD) (w : Fin cfg0.W) :
    W1 m ρ c (Proc.devRef .tc (Pipeline.arrRef spec0 w)) = (Scores.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Scores.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region. -/
def W2 (c : Dev nD) : Valuation τ sig (Elt F) :=
  Pipeline.withArrays spec1 c (W1 m ρ c) fun w => (Outv.dat (V1 m ρ) c).arrAt w cfg1.N
theorem W2_arr (c : Dev nD) (w : Fin cfg1.W) :
    W2 m ρ c (Proc.devRef .tc (Pipeline.arrRef spec1 w)) = (Outv.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (Outv.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, the result at the second region's write-backs -/

/-- x_ is the scores region's first input and bypasses the second region. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((Scores.dat (V0 m ρ) c).arrAt_in 0 rfl _).trans (Scores.A_eq (V0 m ρ) c 0))
    _ = m ((c : Thread nD τ).loc main_arg0) := rfl
/-- x_t is the scores region's second input and bypasses the second region. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((Scores.dat (V0 m ρ) c).arrAt_in 1 rfl _).trans (Scores.A_eq (V0 m ρ) c 1))
    _ = m ((c : Thread nD τ).loc main_arg1) := rfl
/-- g_x bypasses the scores region and is the second region's second input. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 1).trans (((Outv.dat (V1 m ρ) c).arrAt_in 1 rfl _).trans (Outv.A_eq (V1 m ρ) c 1))
    _ = W0 m ρ c (Proc.devRef .tc main_arg2) := W1_of_ne m ρ c main_arg2 (by decide)
    _ = m ((c : Thread nD τ).loc main_arg2) := rfl
/-- The result array ends at what the second region's write-backs compose to. -/
theorem W2_main_v1 (c : Dev nD) : W2 m ρ c (Proc.devRef .tc main_v1) = (Outv.dat (V1 m ρ) c).arrAt 2 cfg1.N := W2_arr m ρ c 2
/-- The second region finds the attention array at what the scores region's write-backs compose to, -/
theorem V1_main_v0 (c : Dev nD) : V1 m ρ c main_v0 = (Scores.dat (V0 m ρ) c).arrAt 2 cfg0.N := W1_arr m ρ c 2
/-- and g_x as launched. -/
theorem V1_main_arg2 (c : Dev nD) : V1 m ρ c main_arg2 = m ((c : Thread nD τ).loc main_arg2) := W1_of_ne m ρ c main_arg2 (by decide)

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Scores.dat (V0 m ρ) c
  | ⟨1, _⟩ => fun c => Outv.dat (V1 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Scores.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Scores.rest_in (V0 m ρ) c)
    unfold Pipeline.ΦA
    iintro ⟨Hp, -, Hr⟩
    isplitl [Hr]; · iexact Hr
    iexact Hp
  hout c := by
    rw [Pipeline.ownSems0_none]
    refine (Scores.rest_out (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Outv.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting; the
    result array ends at the second region's composed write-backs and the argument arrays as launched. -/
theorem run : θ_run defs (onTc (τ := τ) (main (F := F))) ⟨m, fun _ => 0, ρ⟩ (fun r => ∀ c : Dev nD,
      r.2.mem ((c.tc : Thread nD τ).loc main_v1) = (Outv.dat (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Run

end
-- ==== Proof.ScoresPieces.lean ====
/- What the three kinds of run of the scores body leave, read as the body's pure terms: the accumulator after a point
   with c = 0 is "zeros plus the blocks' product", after any other point "what the point before left plus the blocks'
   product", and the output block after a point with c = 15 is the softmax term of the accumulator that point leaves.
   With these the accumulator's recursion over the points no longer mentions the runs. -/
import proofs.«171464_j53326313947744_1_alg».proof.Proof.ScoresData
import Idealize.ShloMosaic.Lib.Pipeline.Value

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl
theorem zero5 : (![0, 0, 0, 0, 0] : Fin 5 → Nat) = fun _ => 0 := funext fun a => by fin_cases a <;> rfl

section
variable (c : Dev nD) (i : grid0.Coords) (arg2 : Memref sig .tc .vmem S1x1x128x80x80 .f32) (harg2 : arg2.IsWhole) (arg3 : Memref sig .tc .vmem S1x1x128x80x80 .f32) (harg3 : arg3.IsWhole) (arg4 : Memref sig .tc .vmem S1x128x128 .f32) (harg4 : arg4.IsWhole) (arg5 : Memref sig .tc .vmem S128x128 .f32) (harg5 : arg5.IsWhole)

/-- First kind: the later store wins; its third operand is what the earlier store (of zeros) left. -/
theorem accFirst_eq (hf : isFirst i) (hl : ¬isLast i) (x0 x1 : Vec F S1x1x128x80x80 .f32) :
    accFirst c i arg2 harg2 arg3 harg3 arg4 harg4 arg5 harg5 hf hl x0 x1 = k0_pay2 x0 x1 (k0_pay1 (F := F)) := by
  unfold accFirst runFirst
  dsimp only
  sl_unfold_words
  rw [View.canon_cons_unit_zero (S := S128x128) zero2]
  simp only [View.readAt_eq_ld, harg2.read_unread, harg3.read_unread, View.ld_unit_zero (S := S1x1x128x80x80) zero5, View.readCov_unit_zero (S := S128x128) _ zero2]

theorem accMiddle_eq (hf : ¬isFirst i) (hl : ¬isLast i) (x0 x1 : Vec F S1x1x128x80x80 .f32) (xs : Vec F S128x128 .f32) :
    accMiddle c i arg2 harg2 arg3 harg3 arg4 harg4 arg5 harg5 hf hl x0 x1 xs = k0_pay2 x0 x1 xs := by
  unfold accMiddle runMiddle
  dsimp only
  sl_unfold_words
  rw [View.canon_cons_unit_zero (S := S128x128) zero2]
  simp only [View.readAt_eq_ld, harg2.read_unread, harg3.read_unread, harg5.read_unread, View.ld_unit_zero (S := S1x1x128x80x80) zero5, View.ld_unit_zero (S := S128x128) zero2, View.readCov_unit_zero (S := S128x128) _ zero2]

theorem accLast_eq (hf : ¬isFirst i) (hl : isLast i) (x0 x1 : Vec F S1x1x128x80x80 .f32) (xs : Vec F S128x128 .f32) :
    accLast c i arg2 harg2 arg3 harg3 arg4 harg4 arg5 harg5 hf hl x0 x1 xs = k0_pay2 x0 x1 xs := by
  unfold accLast runLast
  dsimp only
  sl_unfold_words
  rw [View.canon_cons_unit_zero (S := S128x128) zero2]
  simp only [View.readAt_eq_ld, harg2.read_unread, harg3.read_unread, harg5.read_unread, View.ld_unit_zero (S := S1x1x128x80x80) zero5, View.ld_unit_zero (S := S128x128) zero2, View.readCov_unit_zero (S := S128x128) _ zero2]

theorem outLast_eq (hf : ¬isFirst i) (hl : isLast i) (x0 x1 : Vec F S1x1x128x80x80 .f32) (xs : Vec F S128x128 .f32) :
    outLast c i arg2 harg2 arg3 harg3 arg4 harg4 arg5 harg5 hf hl x0 x1 xs = k0_pay3 (k0_pay2 x0 x1 xs) := by
  unfold outLast runLast
  dsimp only
  sl_unfold_words
  rw [View.canon_unit_zero (S := S1x128x128) zero3]
  simp only [View.readAt_eq_ld, harg2.read_unread, harg3.read_unread, harg5.read_unread, View.ld_unit_zero (S := S1x1x128x80x80) zero5, View.ld_unit_zero (S := S128x128) zero2, View.readCov_unit_zero (S := S128x128) _ zero2]

end

variable (V : (c : Dev nD) → (b : Ref sig .tc) → Buf (Elt F) ((c : Thread nD τ).loc b))

/-- The two input blocks at a point, named at their literal type. -/
abbrev xblk (c : Dev nD) (t : Fin cfg0.N) : Vec F S1x1x128x80x80 .f32 := blk V c 0 t
abbrev xtblk (c : Dev nD) (t : Fin cfg0.N) : Vec F S1x1x128x80x80 .f32 := blk V c 1 t

/-- At c = 0 the accumulator restarts from zeros. -/
theorem accAt_restart (c : Dev nD) (t : Fin cfg0.N) (h0 : t.val % 16 = 0) :
    accAt V c t.val t.isLt = k0_pay2 (xblk V c t) (xtblk V c t) (k0_pay1 (F := F)) := by
  rw [accAt_first V c t h0]; exact accFirst_eq c _ _ _ _ _ _ _ _ _ _ _ _ _

/-- Elsewhere it grows from what the point before left. -/
theorem accAt_grow (c : Dev nD) (t : Fin cfg0.N) (h0 : ¬t.val % 16 = 0) :
    accAt V c t.val t.isLt = k0_pay2 (xblk V c t) (xtblk V c t) (accBefore V c t) := by
  by_cases h1 : t.val % 16 = 15
  · rw [accAt_last V c t h0 h1]; exact accLast_eq c _ _ _ _ _ _ _ _ _ _ _ _ _ _
  · rw [accAt_middle V c t h0 h1]; exact accMiddle_eq c _ _ _ _ _ _ _ _ _ _ _ _ _ _

/-- At c = 15 the output block is the softmax term of the accumulator that point leaves. -/
theorem outAt_soft (c : Dev nD) (t : Fin cfg0.N) (h1 : t.val % 16 = 15) :
    outAt V c t = k0_pay3 (accAt V c t.val t.isLt) := by
  have h0 : ¬t.val % 16 = 0 := by omega
  rw [outAt_last V c t h0 h1, accAt_grow V c t h0]; exact outLast_eq c _ _ _ _ _ _ _ _ _ _ _ _ _ _

end Cert.KernelIdeal.Scores

end
-- ==== Proof.Spec.lean ====
/- What both programs compute, as functions of the three argument arrays over the extended reals.

   The arguments are arrays [B, C, D, H, W] = [2, 16, 128, 80, 80]. For a batch b and two depth indices d, e the
   SCORE is the sum over every channel c and every position (h, w) of x[b, c, d, h, w] · xt[b, c, e, h, w]; a row
   of scores (b, d, ·) is turned into weights by the softmax (subtract the row's maximum, exponentiate, divide by the
   row's sum); and the result at (b, c, d, h, w) is the sum over e of weight(b, d, e) · g[b, c, e, h, w].

   The position (h, w) inside a tile is carried as one number q < 6400, h = q / 80 and w = q % 80, the way a tile is
   flattened. The softmax is spelt exactly as both programs spell it: the row's maximum is folded from the word of
   minus infinity and then compared with that word once more, and the weights' denominator is the plain sum of the
   exponentials. -/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The arguments' and the result's shape, and the weights' shape. -/
abbrev SX : Shape := ⟨5, ![2, 16, 128, 80, 80]⟩
abbrev SA : Shape := ⟨3, ![2, 128, 128]⟩

/-- The word of minus infinity, kept as a word: both programs use the same one. -/
abbrev negInf : Ideal .f32 := Ideal.ofBits .f32 0xFF800000#32

/-- Row and column of position `q` in a flattened 80 × 80 tile. -/
abbrev tileRow (q : Fin 6400) : Fin 80 := ⟨q.val / 80, by have := q.isLt; omega⟩
abbrev tileCol (q : Fin 6400) : Fin 80 := ⟨q.val % 80, by omega⟩

/-- The score of depths `d`, `e` in batch `b`: channel by channel, position by position. -/
def score (x xt : FVec Ideal SX .f32) (b : Fin 2) (d e : Fin 128) : Ideal .f32 :=
  ∑ cc : Fin 16, ∑ q : Fin 6400, x (ix5 b cc d (tileRow q) (tileCol q)) * xt (ix5 b cc e (tileRow q) (tileCol q))

/-- A row's maximum, as both programs compute it. -/
def rowMax (s : Fin 128 → Ideal .f32) : Ideal .f32 := max negInf (Finset.univ.fold max negInf s)

/-- The softmax of a row at position `e`. -/
def soft (s : Fin 128 → Ideal .f32) (e : Fin 128) : Ideal .f32 :=
  Ideal.div (Ideal.exp (s e - rowMax s)) (∑ k : Fin 128, Ideal.exp (s k - rowMax s))

/-- The weights [B, D, D]. -/
def attn (x xt : FVec Ideal SX .f32) : FVec Ideal SA .f32 :=
  fun i => soft (fun k => score x xt (i 0) (i 1) k) (i 2)

/-- Weights applied to the third argument. -/
def apply (a : FVec Ideal SA .f32) (g : FVec Ideal SX .f32) : FVec Ideal SX .f32 :=
  fun i => ∑ e : Fin 128, a (ix3 (i 0) (i 2) e) * g (ix5 (i 0) (i 1) e (i 3) (i 4))

/-- The whole result. -/
def result (x xt g : FVec Ideal SX .f32) : FVec Ideal SX .f32 := apply (attn x xt) g

end Cert.Spec

end
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.LibMaxReduce.lean ====
/-
  A float maximum-reduction over the columns of a matrix, read at the extended reals at a row given by its coordinate:
  the fold of `max` from the accumulator's value over the row's entries. For a kernel's lane reduction
  (`vector.multi_reduction <maximumf>` over axis 1) and for the host's `reduce` with a maximum body over axis 1.
-/
import Idealize.ShloMosaic.Lib.ValueIdx
import Idealize.ShloMosaic.PureOps.Ideal.Laws

namespace Idealize.ShloMosaic.ValueIdx

open Idealize.ShloMosaic

/-- A kernel's maximum over the COLUMNS of an `[a, b]` matrix: in row `r`, the maximum of that row from the accumulator. -/
theorem multiReduction_max_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) fun c => src (ix2 r c) :=
  (Ideal.multiReduction_maximumf_single src acc h hφ hacc (ix1 r)).trans
    (Finset.fold_congr fun c _ => congrArg src (funext fun ax => Fin.ext (by
      match ax with
      | ⟨0, _⟩ => rfl
      | ⟨1, _⟩ => rfl)))

/-- The host's `reduce` with a maximum body over the COLUMNS of an `[a, b]` matrix: in row `i`, the maximum of that row
    from the initial value. -/
theorem hostReduce_max_cols_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf x init h' hu (ix1 i)
      = (Finset.univ : Finset (Fin b)).fold max (init (Shape.Idx.first hu)) fun k => x (ix2 i k) :=
  (Host.reduce_eq_fold_single FloatOps.maximumf x init h' h hu (ix1 i)).trans
    (Finset.fold_congr fun k _ => congrArg x (funext fun ax => Fin.ext (by
      match ax with
      | ⟨0, _⟩ => rfl
      | ⟨1, _⟩ => rfl)))

end Idealize.ShloMosaic.ValueIdx
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.ScoresMath.lean ====
/- The scores body's three pure terms read at an index, at the ideal instance.
   A 128 × 80 × 80 tile flattened to 128 × 6400 has entry (d, q) at tile position (q / 80, q % 80); the block
   product contracts the flattened axis, so its (d, e) entry is the sum over the 6400 positions of the two tiles'
   products, added to the accumulator's entry. The softmax term, row by row, is the specification's `soft`:
   the row's maximum folded from minus infinity and compared with it once more, the exponentials of the
   differences, and the quotient by their plain sum. -/
import proofs.«171464_j53326313947744_1_alg».proof.Proof.Gen.KernelIdeal.Skeleton
import proofs.«171464_j53326313947744_1_alg».proof.Proof.Spec
import proofs.«171464_j53326313947744_1_alg».proof.Proof.LibDotNT
import proofs.«171464_j53326313947744_1_alg».proof.Proof.LibMaxReduce
import proofs.«171464_j53326313947744_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ScoresMath

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-- The cleared accumulator is zero everywhere. -/
theorem pay1_apply (i : S128x128.Idx) : k0_pay1 (F := Ideal) i = 0 := by
  unfold k0_pay1
  rw [shapeCast_self]
  show Ideal.ofBits .f32 0x00000000#32 = 0
  exact Ideal.ofBits_zero_f32

/-- Entry (d, q) of a tile flattened to 128 × 6400 (and narrowed, which changes nothing here) is the tile's entry at
    row q / 80 and column q % 80. -/
theorem tile_flat (x : Vec Ideal S1x1x128x80x80 .f32) (d : Fin 128) (q : Fin 6400) :
    (truncf .bf16 (shapeCast S128x6400 (shapeCast S128x80x80 x shapeCasts_S1x1x128x80x80_S128x80x80) shapeCasts_S128x80x80_S128x6400) bitsLt_bf16_f32 : FVec Ideal S128x6400 .bf16) (ix2 d q)
      = x (ix5 (0 : Fin 1) (0 : Fin 1) d (tileRow q) (tileCol q)) := by
  rw [truncf_apply]
  refine (shapeCast_apply _ _ (ix2 d q) (ix3 d (tileRow q) (tileCol q)) ?_).trans ?_
  · rw [Shape.rowMajor_val_three, Shape.rowMajor_val_two]
    have hq : q.val < 6400 := q.isLt
    show (d.val * 80 + q.val / 80) * 80 + q.val % 80 = d.val * 6400 + q.val
    omega
  · refine shapeCast_apply _ _ (ix3 d (tileRow q) (tileCol q)) (ix5 (0 : Fin 1) (0 : Fin 1) d (tileRow q) (tileCol q)) ?_
    rw [Shape.rowMajor_val_five, Shape.rowMajor_val_three]
    show ((((0 * 1 + 0) * 128 + d.val) * 80 + q.val / 80) * 80 + q.val % 80) = (d.val * 80 + q.val / 80) * 80 + q.val % 80
    omega

/-- One point's update: the accumulator's entry plus the sum over the tile's positions of the two blocks' products. -/
theorem pay2_apply (x0 x1 : Vec Ideal S1x1x128x80x80 .f32) (acc : Vec Ideal S128x128 .f32) (d e : Fin 128) :
    k0_pay2 x0 x1 acc (ix2 d e)
      = acc (ix2 d e) + ∑ q : Fin 6400, x0 (ix5 (0 : Fin 1) (0 : Fin 1) d (tileRow q) (tileCol q)) * x1 (ix5 (0 : Fin 1) (0 : Fin 1) e (tileRow q) (tileCol q)) := by
  unfold k0_pay2
  rw [shapeCast_self, addf_apply]
  refine congrArg (acc (ix2 d e) + ·) ?_
  refine (Cert.LibDotNT.matmul_zero_apply dot_S128x6400_S128x6400_S128x128_1_1_0_0_n_n rfl rfl rfl rfl rfl rfl none _ _ d e).trans ?_
  exact Finset.sum_congr rfl fun q _ => by rw [tile_flat, tile_flat]

/-- A row's maximum as the body computes it. -/
theorem rowmax_apply (v : Vec Ideal S128x128 .f32) (d : Fin 128) :
    (maximumf (broadcast S128 (Scalar.ofBits .f32 0xFF800000#32 : Ideal .f32))
        (multiReduction .maximumf [1] S128 v 0xFF800000#32 reduces_S128x128_S128 (.inl rfl) rfl) : FVec Ideal S128 .f32) (ix1 d)
      = rowMax (fun k => v (ix2 d k)) := by
  rw [maximumf_apply, broadcast_apply]
  show max negInf _ = max negInf (Finset.univ.fold max negInf fun k => v (ix2 d k))
  exact congrArg (max negInf) (multiReduction_max_cols_apply v 0xFF800000#32 reduces_S128x128_S128 _ _ d)

/-- A vector turned into a column and spread over the columns reads, at (d, e), the vector at d. -/
theorem column_apply (u : FVec Ideal S128 .f32) (d e : Fin 128) :
    (broadcastTo S128x128 (shapeCast S128x1 u shapeCasts_S128_S128x1) broadcasts_S128x1_S128x128 : FVec Ideal S128x128 .f32) (ix2 d e) = u (ix1 d) := by
  rw [broadcastTo_a1_ab_apply, shapeCast_a_a1_apply]

/-- The stored softmax, row d, position e. -/
theorem pay3_apply (v : Vec Ideal S128x128 .f32) (d e : Fin 128) :
    k0_pay3 v (ix3 (0 : Fin 1) d e) = soft (fun k => v (ix2 d k)) e := by
  unfold k0_pay3
  refine (shapeCast_apply _ _ (ix3 (0 : Fin 1) d e) (ix2 d e) ?_).trans ?_
  · rw [Shape.rowMajor_val_two, Shape.rowMajor_val_three]
    show d.val * 128 + e.val = ((0 : Fin 1).val * 128 + d.val) * 128 + e.val
    simp
  rw [divf_apply, column_apply]
  unfold soft
  refine congrArg₂ Ideal.div ?_ ((multiReduction_add_cols_apply _ reduces_S128x128_S128 _ _ d).trans (Finset.sum_congr rfl fun k _ => ?_))
  · show Ideal.exp (v (ix2 d e) - _) = _
    rw [column_apply, rowmax_apply]
  · show Ideal.exp (v (ix2 d k) - _) = _
    rw [column_apply, rowmax_apply]

end Cert.KernelIdeal.ScoresMath

end
-- ==== Proof.ScoresValue.lean ====
/- The scores region's output array after the region, at the ideal instance: the softmax weights of the two entry arrays.
   Point t of the 32 is (b, c) = (t / 16, t % 16). Its two input blocks are tile (b, c) of the first two arrays, so one
   point adds channel c's contribution to the score of (d, e). By induction over the points the accumulator after
   point t holds, at (d, e), the contributions of channels 0 … t % 16 of batch t / 16: all sixteen at c = 15, which is
   the score. The output block written back there is the softmax of those rows, i.e. block b of the weights; the two
   flushing points' blocks are the two batches, so together they cover the array. -/
import proofs.«171464_j53326313947744_1_alg».proof.Proof.ScoresPieces
import proofs.«171464_j53326313947744_1_alg».proof.Proof.ScoresMath

set_option maxRecDepth 16384

noncomputable section

open scoped BigOperators

namespace Cert.KernelIdeal.ScoresValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Scores Cert.KernelIdeal.ScoresMath Cert.Spec

variable (V : (c : Dev nD) → (b : Ref sig .tc) → Buf (Elt Ideal) ((c : Thread nD τ).loc b))

/-- The first two arrays as the region finds them. -/
abbrev xarr (c : Dev nD) : FVec Ideal SX .f32 := V c main_arg0
abbrev xtarr (c : Dev nD) : FVec Ideal SX .f32 := V c main_arg1

/-! ## Where the blocks sit -/

/-- The printed index maps over the grid: both input windows are at block (t / 16, t % 16, 0, 0, 0), the output window at
    block (t / 16, 0, 0). -/
theorem idx_facts : ∀ t : Fin cfg0.N,
    win0_0.index t (0 : Fin 5) = t.val / 16 ∧ win0_0.index t (1 : Fin 5) = t.val % 16 ∧ win0_0.index t (2 : Fin 5) = 0
      ∧ win0_0.index t (3 : Fin 5) = 0 ∧ win0_0.index t (4 : Fin 5) = 0
    ∧ win0_1.index t (0 : Fin 5) = t.val / 16 ∧ win0_1.index t (1 : Fin 5) = t.val % 16 ∧ win0_1.index t (2 : Fin 5) = 0
      ∧ win0_1.index t (3 : Fin 5) = 0 ∧ win0_1.index t (4 : Fin 5) = 0
    ∧ win0_2.index t (0 : Fin 3) = t.val / 16 ∧ win0_2.index t (1 : Fin 3) = 0 ∧ win0_2.index t (2 : Fin 3) = 0 :=
  (by decide +kernel : ∀ t : Fin grid0.N, _)

theorem lt32 (t : Fin cfg0.N) : t.val < 32 := lt_of_lt_of_eq t.isLt (show cfg0.N = 32 from N_0)
/-- Point t's batch and channel. -/
abbrev batch (t : Fin cfg0.N) : Fin 2 := ⟨t.val / 16, by have := lt32 t; omega⟩
abbrev chanOf (t : Fin cfg0.N) : Fin 16 := ⟨t.val % 16, by omega⟩

/-- The first input block at point t is tile (batch, channel) of the first array. -/
theorem xblk_apply (c : Dev nD) (t : Fin cfg0.N) (d : Fin 128) (h w : Fin 80) :
    xblk V c t (ix5 (0 : Fin 1) (0 : Fin 1) d h w) = xarr V c (ix5 (batch t) (chanOf t) d h w) := by
  obtain ⟨e0, e1, e2, e3, e4, -⟩ := idx_facts t
  show V c main_arg0 (((cfg0.win 0).blk t).view.emb (ix5 (0 : Fin 1) (0 : Fin 1) d h w)) = V c main_arg0 (ix5 (batch t) (chanOf t) d h w)
  refine congrArg (V c main_arg0) (funext fun a => Fin.ext ?_)
  match a with
  | ⟨0, _⟩ => show win0_0.index t (0 : Fin 5) * 1 + 1 * 0 = t.val / 16; omega
  | ⟨1, _⟩ => show win0_0.index t (1 : Fin 5) * 1 + 1 * 0 = t.val % 16; omega
  | ⟨2, _⟩ => show win0_0.index t (2 : Fin 5) * 128 + 1 * d.val = d.val; omega
  | ⟨3, _⟩ => show win0_0.index t (3 : Fin 5) * 80 + 1 * h.val = h.val; omega
  | ⟨4, _⟩ => show win0_0.index t (4 : Fin 5) * 80 + 1 * w.val = w.val; omega

/-- The second input block at point t is tile (batch, channel) of the second array. -/
theorem xtblk_apply (c : Dev nD) (t : Fin cfg0.N) (d : Fin 128) (h w : Fin 80) :
    xtblk V c t (ix5 (0 : Fin 1) (0 : Fin 1) d h w) = xtarr V c (ix5 (batch t) (chanOf t) d h w) := by
  obtain ⟨-, -, -, -, -, e0, e1, e2, e3, e4, -⟩ := idx_facts t
  show V c main_arg1 (((cfg0.win 1).blk t).view.emb (ix5 (0 : Fin 1) (0 : Fin 1) d h w)) = V c main_arg1 (ix5 (batch t) (chanOf t) d h w)
  refine congrArg (V c main_arg1) (funext fun a => Fin.ext ?_)
  match a with
  | ⟨0, _⟩ => show win0_1.index t (0 : Fin 5) * 1 + 1 * 0 = t.val / 16; omega
  | ⟨1, _⟩ => show win0_1.index t (1 : Fin 5) * 1 + 1 * 0 = t.val % 16; omega
  | ⟨2, _⟩ => show win0_1.index t (2 : Fin 5) * 128 + 1 * d.val = d.val; omega
  | ⟨3, _⟩ => show win0_1.index t (3 : Fin 5) * 80 + 1 * h.val = h.val; omega
  | ⟨4, _⟩ => show win0_1.index t (4 : Fin 5) * 80 + 1 * w.val = w.val; omega

/-- Entry (0, d, e) of the output block at point t is entry (batch, d, e) of the array. -/
theorem out_emb (t : Fin cfg0.N) (d e : Fin 128) :
    ((cfg0.win 2).blk t).view.emb (ix3 (0 : Fin 1) d e) = ix3 (batch t) d e := by
  obtain ⟨-, -, -, -, -, -, -, -, -, -, e0, e1, e2⟩ := idx_facts t
  refine funext fun a => Fin.ext ?_
  match a with
  | ⟨0, _⟩ => show win0_2.index t (0 : Fin 3) * 1 + 1 * 0 = t.val / 16; omega
  | ⟨1, _⟩ => show win0_2.index t (1 : Fin 3) * 128 + 1 * d.val = d.val; omega
  | ⟨2, _⟩ => show win0_2.index t (2 : Fin 3) * 128 + 1 * e.val = e.val; omega

/-! ## The accumulator point by point -/

/-- One channel's contribution to the score of (d, e) in batch b. -/
def chan (x xt : FVec Ideal SX .f32) (b : Fin 2) (cc : Fin 16) (d e : Fin 128) : Ideal .f32 :=
  ∑ q : Fin 6400, x (ix5 b cc d (tileRow q) (tileCol q)) * xt (ix5 b cc e (tileRow q) (tileCol q))

/-- The same with the channel a natural number (nothing beyond 15). -/
def chanN (x xt : FVec Ideal SX .f32) (b : Fin 2) (k : ℕ) (d e : Fin 128) : Ideal .f32 :=
  if h : k < 16 then chan x xt b ⟨k, h⟩ d e else 0

/-- One point's update adds its channel's contribution. -/
theorem step_apply (c : Dev nD) (t : Fin cfg0.N) (acc : Vec Ideal S128x128 .f32) (d e : Fin 128) :
    k0_pay2 (xblk V c t) (xtblk V c t) acc (ix2 d e) = acc (ix2 d e) + chanN (xarr V c) (xtarr V c) (batch t) (t.val % 16) d e := by
  rw [pay2_apply]
  refine congrArg (acc (ix2 d e) + ·) ?_
  unfold chanN
  rw [dif_pos (show t.val % 16 < 16 by omega)]
  unfold chan
  exact Finset.sum_congr rfl fun q _ => by rw [xblk_apply, xtblk_apply]

/-- After position n the accumulator holds, at (d, e), the contributions of channels 0 … n % 16 of batch n / 16. -/
theorem acc_apply (c : Dev nD) : ∀ (n : ℕ) (hn : n < cfg0.N) (d e : Fin 128),
    accAt V c n hn (ix2 d e) = ∑ k ∈ Finset.range (n % 16 + 1), chanN (xarr V c) (xtarr V c) (batch ⟨n, hn⟩) k d e := by
  intro n
  induction n with
  | zero =>
    intro hn d e
    refine (congrFun (accAt_restart V c ⟨0, hn⟩ rfl) (ix2 d e)).trans ?_
    rw [step_apply, pay1_apply, zero_add]
    show _ = ∑ k ∈ Finset.range 1, _
    rw [Finset.sum_range_one]
    rfl
  | succ n ih =>
    intro hn d e
    have hN : n + 1 < 32 := lt32 ⟨n + 1, hn⟩
    by_cases h0 : (n + 1) % 16 = 0
    · refine (congrFun (accAt_restart V c ⟨n + 1, hn⟩ h0) (ix2 d e)).trans ?_
      rw [step_apply, pay1_apply, zero_add]
      show chanN _ _ _ ((n + 1) % 16) d e = ∑ k ∈ Finset.range ((n + 1) % 16 + 1), _
      rw [h0, Finset.sum_range_one]
    · refine (congrFun (accAt_grow V c ⟨n + 1, hn⟩ h0) (ix2 d e)).trans ?_
      rw [step_apply]
      show accAt V c (n + 1 - 1) _ (ix2 d e) + chanN _ _ _ ((n + 1) % 16) d e = _
      have hb : batch ⟨n, Nat.lt_of_succ_lt hn⟩ = batch ⟨n + 1, hn⟩ := Fin.ext (by show n / 16 = (n + 1) / 16; omega)
      have hk : (n + 1) % 16 = n % 16 + 1 := by omega
      rw [show accAt V c (n + 1 - 1) (Nat.lt_of_le_of_lt (Nat.sub_le _ _) hn) = accAt V c n (Nat.lt_of_succ_lt hn) from rfl,
        ih (Nat.lt_of_succ_lt hn) d e, hb, hk]
      exact (Finset.sum_range_succ (fun k => chanN (xarr V c) (xtarr V c) (batch ⟨n + 1, hn⟩) k d e) (n % 16 + 1)).symm

/-- At a point with c = 15 all sixteen channels are in: the accumulator holds the scores of its batch. -/
theorem acc_full (c : Dev nD) (t : Fin cfg0.N) (h1 : t.val % 16 = 15) (d e : Fin 128) :
    accAt V c t.val t.isLt (ix2 d e) = score (xarr V c) (xtarr V c) (batch t) d e := by
  rw [acc_apply V c t.val t.isLt d e, h1]
  unfold score
  show ∑ k ∈ Finset.range 16, chanN (xarr V c) (xtarr V c) (batch t) k d e = _
  rw [← Fin.sum_univ_eq_sum_range (fun k => chanN (xarr V c) (xtarr V c) (batch t) k d e) 16]
  refine Finset.sum_congr rfl fun cc _ => ?_
  unfold chanN
  rw [dif_pos cc.isLt]
  rfl

/-! ## What the flushing points write back, and the cover -/

/-- The output block stored at a point with c = 15 is block (batch) of the weights. -/
theorem soft_block (c : Dev nD) (t : Fin cfg0.N) (h1 : t.val % 16 = 15) (d e : Fin 128) :
    k0_pay3 (accAt V c t.val t.isLt) (ix3 (0 : Fin 1) d e) = attn (xarr V c) (xtarr V c) (ix3 (batch t) d e) := by
  rw [pay3_apply]
  show soft _ e = soft (fun k => score (xarr V c) (xtarr V c) (batch t) d k) e
  exact congrArg (fun s => soft s e) (funext fun k => acc_full V c t h1 d k)

theorem flushed_eq (c : Dev nD) (t : Fin cfg0.N) (hf : (cfg0.win 2).flush t = true) :
    (Scores.dat V c).flushed 2 t = ((cfg0.win 2).blk t).view.read (Elt Ideal) (attn (xarr V c) (xtarr V c)) := by
  have h1 : t.val % 16 = 15 := (flush0_2 t).mp hf
  show (cfg0.win 2).cut (grid0.coords t) ((Scores.dat V c).after 2 t) = _
  rw [after_out, outAt_soft V c t h1]
  funext j
  have hj0 : (j 0).val < 1 := (j 0).isLt
  obtain ⟨d, e, rfl⟩ : ∃ (d e : Fin 128), j = ix3 (0 : Fin 1) d e :=
    ⟨⟨(j 1).val, (j 1).isLt⟩, ⟨(j 2).val, (j 2).isLt⟩, funext fun a => by
      match a with
      | ⟨0, _⟩ => exact Fin.ext (by show (j 0).val = 0; omega)
      | ⟨1, _⟩ => rfl
      | ⟨2, _⟩ => rfl⟩
  show k0_pay3 (accAt V c t.val t.isLt) (ix3 (0 : Fin 1) d e)
    = attn (xarr V c) (xtarr V c) (((cfg0.win 2).blk t).view.emb (ix3 (0 : Fin 1) d e))
  rw [out_emb, soft_block V c t h1]

/-- An index of the weights array is in point t's block iff each coordinate is in the block's range on its axis. -/
theorem mem_blk (t : Fin cfg0.N) (i : S2x128x128.Idx) :
    i ∈ ((cfg0.win 2).blk t).view.set ↔ ∀ a : Fin 3, win0_2.index t a * S1x128x128.size a ≤ (i a).val ∧ (i a).val < win0_2.index t a * S1x128x128.size a + S1x128x128.size a := by
  show i ∈ ((View.whole main_v0).slice (win0_2.rect t)).set ↔ _
  rw [View.set_slice_whole, Rect.mem_set_unit]
  exact Iff.rfl

/-- Batch b's block is written back at point 16 b + 15. -/
theorem cover (i : S2x128x128.Idx) : ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 128 := (i 2).isLt
  have hN : cfg0.N = 32 := N_0
  let t : Fin cfg0.N := ⟨16 * (i 0).val + 15, by omega⟩
  have ht : t.val = 16 * (i 0).val + 15 := rfl
  refine ⟨t, (flush0_2 t).mpr (by rw [ht]; omega), ?_⟩
  obtain ⟨-, -, -, -, -, -, -, -, -, -, e0, e1, e2⟩ := idx_facts t
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- After the scores region its output array holds the softmax weights of the first two arrays as the region found them. -/
theorem final (c : Dev nD) :
    ((Scores.dat (F := Ideal) V c).arrAt 2 cfg0.N : FVec Ideal S2x128x128 .f32) = Cert.Spec.attn (V c main_arg0) (V c main_arg1) :=
  (Scores.dat V c).arrAt_eq_of_cover 2 (attn (xarr V c) (xtarr V c)) (fun t hf => flushed_eq V c t hf) cover

end Cert.KernelIdeal.ScoresValue

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.OutvValue.lean ====
/- The second region's output array after the region, at the ideal instance: the weights it found applied to the third argument. -/
import proofs.«171464_j53326313947744_1_alg».proof.Proof.Outv
import proofs.«171464_j53326313947744_1_alg».proof.Proof.Spec
import proofs.«171464_j53326313947744_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.OutvValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Outv

/-! ## The body's product at an entry -/

section Casts
variable {α : Type}

/-- The weights block without its unit axis. -/
theorem cast_weights (x : S1x128x128.Idx → α) (d e : Fin 128) :
    shapeCast S128x128 x shapeCasts_S1x128x128_S128x128 (ix2 d e) = x (ix3 (0 : Fin 1) d e) := by
  refine shapeCast_apply x _ (ix2 d e) (ix3 (0 : Fin 1) d e) ?_
  rw [Shape.rowMajor_val_three, Shape.rowMajor_val_two]
  show ((0 : Fin 1).val * 128 + d.val) * 128 + e.val = d.val * 128 + e.val
  simp only [Fin.val_zero]; omega

/-- The third argument's block without its two unit axes. -/
theorem cast_tile (x : S1x1x128x80x80.Idx → α) (e : Fin 128) (h w : Fin 80) :
    shapeCast S128x80x80 x shapeCasts_S1x1x128x80x80_S128x80x80 (ix3 e h w) = x (ix5 (0 : Fin 1) (0 : Fin 1) e h w) := by
  refine shapeCast_apply x _ (ix3 e h w) (ix5 (0 : Fin 1) (0 : Fin 1) e h w) ?_
  rw [Shape.rowMajor_val_five, Shape.rowMajor_val_three]
  show ((((0 : Fin 1).val * 1 + (0 : Fin 1).val) * 128 + e.val) * 80 + h.val) * 80 + w.val = (e.val * 80 + h.val) * 80 + w.val
  simp only [Fin.val_zero]; omega

/-- A tile flattened: position `(h, w)` is number `80 h + w`. -/
theorem cast_flat (x : S128x80x80.Idx → α) (e : Fin 128) (h w : Fin 80) (q : Fin 6400) (hq : q.val = h.val * 80 + w.val) :
    shapeCast S128x6400 x shapeCasts_S128x80x80_S128x6400 (ix2 e q) = x (ix3 e h w) := by
  refine shapeCast_apply x _ (ix2 e q) (ix3 e h w) ?_
  rw [Shape.rowMajor_val_three, Shape.rowMajor_val_two]
  show (e.val * 80 + h.val) * 80 + w.val = e.val * 6400 + q.val
  omega

/-- A flattened tile unflattened. -/
theorem cast_unflat (x : S128x6400.Idx → α) (e : Fin 128) (h w : Fin 80) (q : Fin 6400) (hq : q.val = h.val * 80 + w.val) :
    shapeCast S128x80x80 x shapeCasts_S128x6400_S128x80x80 (ix3 e h w) = x (ix2 e q) := by
  refine shapeCast_apply x _ (ix3 e h w) (ix2 e q) ?_
  rw [Shape.rowMajor_val_three, Shape.rowMajor_val_two]
  show e.val * 6400 + q.val = (e.val * 80 + h.val) * 80 + w.val
  omega

/-- The two unit axes put back. -/
theorem cast_block (x : S128x80x80.Idx → α) (e : Fin 128) (h w : Fin 80) :
    shapeCast S1x1x128x80x80 x shapeCasts_S128x80x80_S1x1x128x80x80 (ix5 (0 : Fin 1) (0 : Fin 1) e h w) = x (ix3 e h w) := by
  refine shapeCast_apply x _ (ix5 (0 : Fin 1) (0 : Fin 1) e h w) (ix3 e h w) ?_
  rw [Shape.rowMajor_val_five, Shape.rowMajor_val_three]
  show (e.val * 80 + h.val) * 80 + w.val = ((((0 : Fin 1).val * 1 + (0 : Fin 1).val) * 128 + e.val) * 80 + h.val) * 80 + w.val
  simp only [Fin.val_zero]; omega

end Casts

/-- The body's product at entry `(d, h, w)` of its block: row `d` of the weights block against column `(h, w)` of the third
    argument's block. -/
theorem pay_apply (a : Vec Ideal S1x128x128 .f32) (g : Vec Ideal S1x1x128x80x80 .f32) (d : Fin 128) (h w : Fin 80) :
    k1_pay1 (F := Ideal) a g (ix5 (0 : Fin 1) (0 : Fin 1) d h w)
      = ∑ e : Fin 128, a (ix3 (0 : Fin 1) d e) * g (ix5 (0 : Fin 1) (0 : Fin 1) e h w) := by
  have hq : (⟨h.val * 80 + w.val, by have := h.isLt; have := w.isLt; omega⟩ : Fin 6400).val = h.val * 80 + w.val := rfl
  unfold k1_pay1
  rw [cast_block, cast_unflat _ d h w _ hq]
  refine (Cert.LibDot.matmul_zero_apply dot_S128x128_S128x6400_S128x6400_1_0_0_1_n_n rfl rfl rfl rfl rfl rfl none _ _ d _).trans ?_
  refine Finset.sum_congr rfl fun e _ => ?_
  rw [truncf_apply, truncf_apply, cast_weights, cast_flat _ e h w _ hq, cast_tile]

/-- One entry of the output block against the result it is a block of: given that the weights block is batch `b` of the
    weights and the third argument's block is block `(b, cc)` of the third argument, entry `(d, h, w)` of the body's product is
    entry `(b, cc, d, h, w)` of the weights applied to the third argument. -/
theorem block_entry (a : Vec Ideal S1x128x128 .f32) (g : Vec Ideal S1x1x128x80x80 .f32)
    (A : FVec Ideal Cert.Spec.SA .f32) (G : FVec Ideal Cert.Spec.SX .f32)
    (b : Fin 2) (cc : Fin 16) (d : Fin 128) (h w : Fin 80)
    (ha : ∀ e : Fin 128, a (ix3 (0 : Fin 1) d e) = A (ix3 b d e))
    (hg : ∀ e : Fin 128, g (ix5 (0 : Fin 1) (0 : Fin 1) e h w) = G (ix5 b cc e h w)) :
    k1_pay1 (F := Ideal) a g (ix5 (0 : Fin 1) (0 : Fin 1) d h w) = Cert.Spec.apply A G (ix5 b cc d h w) := by
  rw [pay_apply]
  show _ = ∑ e : Fin 128, A (ix3 b d e) * G (ix5 b cc e h w)
  exact Finset.sum_congr rfl fun e _ => by rw [ha, hg]

/-! ## The windows' blocks as parts of their arrays -/

theorem zeros3 : (![0, 0, 0] : Fin 3 → Nat) = fun _ => 0 := funext fun a => by fin_cases a <;> rfl
theorem zeros5 : (![0, 0, 0, 0, 0] : Fin 5 → Nat) = fun _ => 0 := funext fun a => by fin_cases a <;> rfl

/-- The three index maps over the grid: at point `t` the batch is `t / 16` and the channel `t % 16`; the weights window
    follows the batch alone, the other two windows follow both, and every other block index is zero. -/
theorem index_maps : ∀ t : Fin cfg1.N,
      win1_0.index t (0 : Fin 3) = t.val / 16 ∧ win1_0.index t (1 : Fin 3) = 0 ∧ win1_0.index t (2 : Fin 3) = 0
    ∧ win1_1.index t (0 : Fin 5) = t.val / 16 ∧ win1_1.index t (1 : Fin 5) = t.val % 16 ∧ win1_1.index t (2 : Fin 5) = 0
    ∧ win1_1.index t (3 : Fin 5) = 0 ∧ win1_1.index t (4 : Fin 5) = 0
    ∧ win1_2.index t (0 : Fin 5) = t.val / 16 ∧ win1_2.index t (1 : Fin 5) = t.val % 16 ∧ win1_2.index t (2 : Fin 5) = 0
    ∧ win1_2.index t (3 : Fin 5) = 0 ∧ win1_2.index t (4 : Fin 5) = 0 :=
  (by decide +kernel : ∀ t : Fin grid1.N, _)

variable (V : (c : Dev nD) → (b : Ref sig .tc) → Buf (Elt Ideal) ((c : Thread nD τ).loc b))

/-- The weights window's block at point `t` is batch `t / 16` of the weights array. -/
theorem weights_block (c : Dev nD) (t : Fin cfg1.N) (b : Fin 2) (hb : b.val = t.val / 16) (d e : Fin 128) :
    (blk V c 0 t : Vec Ideal S1x128x128 .f32) (ix3 (0 : Fin 1) d e)
      = (V c main_v0 : FVec Ideal Cert.Spec.SA .f32) (ix3 b d e) := by
  obtain ⟨e0, e1, e2, -⟩ := index_maps t
  unfold blk
  rw [View.read_apply]
  show V c main_v0 _ = V c main_v0 _
  congr 1
  funext a
  apply Fin.ext
  match a with
  | ⟨0, _⟩ => show win1_0.index t (0 : Fin 3) * 1 + 1 * (0 : Fin 1).val = b.val; rw [e0, hb]; simp only [Fin.val_zero]; omega
  | ⟨1, _⟩ => show win1_0.index t (1 : Fin 3) * 128 + 1 * d.val = d.val; rw [e1]; omega
  | ⟨2, _⟩ => show win1_0.index t (2 : Fin 3) * 128 + 1 * e.val = e.val; rw [e2]; omega

/-- The third argument's window's block at point `t` is block `(t / 16, t % 16)` of the third argument. -/
theorem tile_block (c : Dev nD) (t : Fin cfg1.N) (b : Fin 2) (hb : b.val = t.val / 16) (cc : Fin 16) (hc : cc.val = t.val % 16)
    (e : Fin 128) (h w : Fin 80) :
    (blk V c 1 t : Vec Ideal S1x1x128x80x80 .f32) (ix5 (0 : Fin 1) (0 : Fin 1) e h w)
      = (V c main_arg2 : FVec Ideal Cert.Spec.SX .f32) (ix5 b cc e h w) := by
  obtain ⟨-, -, -, e0, e1, e2, e3, e4, -⟩ := index_maps t
  unfold blk
  rw [View.read_apply]
  show V c main_arg2 _ = V c main_arg2 _
  congr 1
  funext a
  apply Fin.ext
  match a with
  | ⟨0, _⟩ => show win1_1.index t (0 : Fin 5) * 1 + 1 * (0 : Fin 1).val = b.val; rw [e0, hb]; simp only [Fin.val_zero]; omega
  | ⟨1, _⟩ => show win1_1.index t (1 : Fin 5) * 1 + 1 * (0 : Fin 1).val = cc.val; rw [e1, hc]; simp only [Fin.val_zero]; omega
  | ⟨2, _⟩ => show win1_1.index t (2 : Fin 5) * 128 + 1 * e.val = e.val; rw [e2]; omega
  | ⟨3, _⟩ => show win1_1.index t (3 : Fin 5) * 80 + 1 * h.val = h.val; rw [e3]; omega
  | ⟨4, _⟩ => show win1_1.index t (4 : Fin 5) * 80 + 1 * w.val = w.val; rw [e4]; omega

/-! ## What a point writes back, and the array after the region -/

/-- What point `t` writes back is block `t` of the weights applied to the third argument. -/
theorem written_block (c : Dev nD) (t : Fin cfg1.N) :
    (Outv.dat (F := Ideal) V c).flushed 2 t
      = ((cfg1.win 2).blk t).view.read (Elt Ideal) (Cert.Spec.apply (V c main_v0) (V c main_arg2)) := by
  show (cfg1.win 2).cut (grid1.coords t) ((Outv.dat (F := Ideal) V c).after 2 t) = _
  rw [after_out]
  unfold outBlock
  rw [View.canon_unit_zero zeros5]
  simp only [View.ld_unit_zero (S := S1x128x128) zeros3, View.ld_unit_zero (S := S1x1x128x80x80) zeros5]
  have hN : t.val < 32 := lt_of_lt_of_eq t.isLt N_1
  obtain ⟨-, -, -, -, -, -, -, -, e0, e1, e2, e3, e4⟩ := index_maps t
  funext j
  have hj0 : (j 0).val < 1 := (j 0).isLt
  have hj1 : (j 1).val < 1 := (j 1).isLt
  have hj2 : (j 2).val < 128 := (j 2).isLt
  have hj3 : (j 3).val < 80 := (j 3).isLt
  have hj4 : (j 4).val < 80 := (j 4).isLt
  have hy : (cfg1.win 2).xinj (grid1.coords t) j
      = ix5 (0 : Fin 1) (0 : Fin 1) (⟨(j 2).val, hj2⟩ : Fin 128) (⟨(j 3).val, hj3⟩ : Fin 80) (⟨(j 4).val, hj4⟩ : Fin 80) := by
    funext a
    apply Fin.ext
    match a with
    | ⟨0, _⟩ => show (j 0).val = (0 : Fin 1).val; simp only [Fin.val_zero]; omega
    | ⟨1, _⟩ => show (j 1).val = (0 : Fin 1).val; simp only [Fin.val_zero]; omega
    | ⟨2, _⟩ => rfl
    | ⟨3, _⟩ => rfl
    | ⟨4, _⟩ => rfl
  have hi : ((cfg1.win 2).blk t).view.emb j
      = ix5 (⟨t.val / 16, by omega⟩ : Fin 2) (⟨t.val % 16, by omega⟩ : Fin 16) (⟨(j 2).val, hj2⟩ : Fin 128) (⟨(j 3).val, hj3⟩ : Fin 80) (⟨(j 4).val, hj4⟩ : Fin 80) := by
    funext a
    apply Fin.ext
    match a with
    | ⟨0, _⟩ => show win1_2.index t (0 : Fin 5) * 1 + 1 * (j 0).val = t.val / 16; rw [e0]; omega
    | ⟨1, _⟩ => show win1_2.index t (1 : Fin 5) * 1 + 1 * (j 1).val = t.val % 16; rw [e1]; omega
    | ⟨2, _⟩ => show win1_2.index t (2 : Fin 5) * 128 + 1 * (j 2).val = (j 2).val; rw [e2]; omega
    | ⟨3, _⟩ => show win1_2.index t (3 : Fin 5) * 80 + 1 * (j 3).val = (j 3).val; rw [e3]; omega
    | ⟨4, _⟩ => show win1_2.index t (4 : Fin 5) * 80 + 1 * (j 4).val = (j 4).val; rw [e4]; omega
  rw [View.read_apply]
  show k1_pay1 (F := Ideal) (blk V c 0 t) (blk V c 1 t) ((cfg1.win 2).xinj (grid1.coords t) j)
    = Cert.Spec.apply (V c main_v0) (V c main_arg2) (((cfg1.win 2).blk t).view.emb j)
  rw [hy, hi]
  exact block_entry (blk V c 0 t) (blk V c 1 t) (V c main_v0) (V c main_arg2) _ _ _ _ _
    (fun e => weights_block V c t _ rfl _ e) (fun e => tile_block V c t _ rfl _ rfl e _ _)

/-- An index of the output array is in point `t`'s block iff each coordinate is in the block's range on its axis. -/
theorem mem_block (t : Fin cfg1.N) (i : S2x16x128x80x80.Idx) :
    i ∈ ((cfg1.win 2).blk t).view.set
      ↔ ∀ a : Fin 5, win1_2.index t a * S1x1x128x80x80.size a ≤ (i a).val
          ∧ (i a).val < win1_2.index t a * S1x1x128x80x80.size a + S1x1x128x80x80.size a := by
  show i ∈ ((View.whole main_v1).slice (win1_2.rect t)).set ↔ _
  rw [View.set_slice_whole, Rect.mem_set_unit]
  exact Iff.rfl

/-- Every index `(b, cc, d, h, w)` of the output array is in the block of the point `16 b + cc`, which is written back. -/
theorem covered (i : S2x16x128x80x80.Idx) :
    ∃ t : Fin cfg1.N, (cfg1.win 2).flush t = true ∧ i ∈ ((cfg1.win 2).blk t).view.set := by
  have hi0 : (i 0).val < 2 := (i 0).isLt
  have hi1 : (i 1).val < 16 := (i 1).isLt
  have hi2 : (i 2).val < 128 := (i 2).isLt
  have hi3 : (i 3).val < 80 := (i 3).isLt
  have hi4 : (i 4).val < 80 := (i 4).isLt
  have hlt : 16 * (i 0).val + (i 1).val < cfg1.N := lt_of_lt_of_eq (by omega : 16 * (i 0).val + (i 1).val < 32) N_1.symm
  refine ⟨⟨16 * (i 0).val + (i 1).val, hlt⟩, flush1_2 _, ?_⟩
  obtain ⟨-, -, -, -, -, -, -, -, e0, e1, e2, e3, e4⟩ := index_maps ⟨16 * (i 0).val + (i 1).val, hlt⟩
  have q0 : win1_2.index ⟨16 * (i 0).val + (i 1).val, hlt⟩ (0 : Fin 5) = (i 0).val := by rw [e0]; show (16 * (i 0).val + (i 1).val) / 16 = _; omega
  have q1 : win1_2.index ⟨16 * (i 0).val + (i 1).val, hlt⟩ (1 : Fin 5) = (i 1).val := by rw [e1]; show (16 * (i 0).val + (i 1).val) % 16 = _; omega
  rw [mem_block]
  intro a
  match a with
  | ⟨0, _⟩ => show win1_2.index ⟨16 * (i 0).val + (i 1).val, hlt⟩ (0 : Fin 5) * 1 ≤ (i 0).val ∧ (i 0).val < win1_2.index ⟨16 * (i 0).val + (i 1).val, hlt⟩ (0 : Fin 5) * 1 + 1; rw [q0]; omega
  | ⟨1, _⟩ => show win1_2.index ⟨16 * (i 0).val + (i 1).val, hlt⟩ (1 : Fin 5) * 1 ≤ (i 1).val ∧ (i 1).val < win1_2.index ⟨16 * (i 0).val + (i 1).val, hlt⟩ (1 : Fin 5) * 1 + 1; rw [q1]; omega
  | ⟨2, _⟩ => show win1_2.index ⟨16 * (i 0).val + (i 1).val, hlt⟩ (2 : Fin 5) * 128 ≤ (i 2).val ∧ (i 2).val < win1_2.index ⟨16 * (i 0).val + (i 1).val, hlt⟩ (2 : Fin 5) * 128 + 128; rw [e2]; omega
  | ⟨3, _⟩ => show win1_2.index ⟨16 * (i 0).val + (i 1).val, hlt⟩ (3 : Fin 5) * 80 ≤ (i 3).val ∧ (i 3).val < win1_2.index ⟨16 * (i 0).val + (i 1).val, hlt⟩ (3 : Fin 5) * 80 + 80; rw [e3]; omega
  | ⟨4, _⟩ => show win1_2.index ⟨16 * (i 0).val + (i 1).val, hlt⟩ (4 : Fin 5) * 80 ≤ (i 4).val ∧ (i 4).val < win1_2.index ⟨16 * (i 0).val + (i 1).val, hlt⟩ (4 : Fin 5) * 80 + 80; rw [e4]; omega

/-- After the second region its output array holds the weights array, as the region found it, applied to the third argument. -/
theorem final (c : Dev nD) :
    ((Outv.dat (F := Ideal) V c).arrAt 2 cfg1.N : FVec Ideal S2x16x128x80x80 .f32) = Cert.Spec.apply (V c main_v0) (V c main_arg2) :=
  (Outv.dat (F := Ideal) V c).arrAt_eq_of_cover 2 (Cert.Spec.apply (V c main_v0) (V c main_arg2))
    (fun t _ => written_block V c t) covered

end Cert.KernelIdeal.OutvValue

end
-- ==== Proof.LibStretchSum.lean ====
/-
  Sums cut into equal stretches.  A sum over the first `a * b` naturals is the sum, over the `a` stretches of
  length `b`, of each stretch's own sum: only commutativity and associativity of `+` are used, so the statement
  holds in every additive commutative monoid (the extended reals among them, infinities included).
-/
import Mathlib.Algebra.BigOperators.Intervals
import Mathlib.Algebra.BigOperators.Fin

namespace Cert.Algebra

open Finset

/-- `∑_{s<a} ∑_{q<b} f (b·s + q) = ∑_{k<a·b} f k`. -/
theorem sum_range_stretches {β : Type*} [AddCommMonoid β] (f : ℕ → β) (b : ℕ) :
    ∀ a : ℕ, ∑ s ∈ range a, ∑ q ∈ range b, f (b * s + q) = ∑ k ∈ range (a * b), f k
  | 0 => by simp
  | a + 1 => by
    rw [sum_range_succ, sum_range_stretches f b a, Nat.succ_mul, sum_range_add, Nat.mul_comm b a]

/-- The same with the inner sums over `Fin b` and the whole sum over `Fin (a * b)`. -/
theorem sum_fin_stretches {β : Type*} [AddCommMonoid β] (f : ℕ → β) (a b : ℕ) :
    ∑ s ∈ range a, ∑ q : Fin b, f (b * s + q.val) = ∑ k : Fin (a * b), f k.val := by
  rw [Fin.sum_univ_eq_sum_range (fun k => f k) (a * b), ← sum_range_stretches f b a]
  exact sum_congr rfl fun s _ => Fin.sum_univ_eq_sum_range (fun q => f (b * s + q)) b

end Cert.Algebra
-- ==== Proof.LibMaxAxes.lean ====
/-
  Float maximum reductions read at the extended reals as `Finset.fold max` over the reduced axis, at a result index given
  by its coordinates: a kernel's `vector.multi_reduction <maximumf>` down the ROWS of a matrix (axis 0), and the host's
  `reduce` with a maximum body down the rows of a matrix (axis 0) and along the LAST axis of a rank-3 array (axis 2).
-/
import Idealize.ShloMosaic.Lib.ValueIdx
import Idealize.ShloMosaic.PureOps.Ideal.Laws

namespace Idealize.ShloMosaic.ValueIdx

open Idealize.ShloMosaic

/-- A kernel's maximum down the ROWS of an `[a, b]` matrix: in column `j`, the maximum of that column from the
    accumulator. -/
theorem multiReduction_max_rows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) fun r => src (ix2 r j) :=
  (Ideal.multiReduction_maximumf_single src acc h hφ hacc (ix1 j)).trans
    (Finset.fold_congr fun r _ => congrArg src (funext fun ax => Fin.ext (by
      match ax with
      | ⟨0, _⟩ => rfl
      | ⟨1, _⟩ => rfl)))

/-- The host's `reduce` with a maximum body down the ROWS of an `[a, b]` matrix: in column `j`, the maximum of that
    column from the initial value. -/
theorem hostReduce_max_rows_apply {a b : ℕ} {u : Shape} (x : FVec Ideal ⟨2, ![a, b]⟩ .f32) (init : u.Idx → Ideal .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduce FloatOps.maximumf x init h' hu (ix1 j)
      = (Finset.univ : Finset (Fin a)).fold max (init (Shape.Idx.first hu)) fun r => x (ix2 r j) :=
  (Host.reduce_eq_fold_single FloatOps.maximumf x init h' h hu (ix1 j)).trans
    (Finset.fold_congr fun r _ => congrArg x (funext fun ax => Fin.ext (by
      match ax with
      | ⟨0, _⟩ => rfl
      | ⟨1, _⟩ => rfl)))

/-- The host's `reduce` with a maximum body along the LAST axis of an `[a, b, n]` array: at `(p, q)`, the maximum of
    that fibre from the initial value. -/
theorem hostReduce_max_last3_apply {a b n : ℕ} {u : Shape} (x : FVec Ideal ⟨3, ![a, b, n]⟩ .f32) (init : u.Idx → Ideal .f32)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduce FloatOps.maximumf x init h' hu (ix2 p q)
      = (Finset.univ : Finset (Fin n)).fold max (init (Shape.Idx.first hu)) fun k => x (ix3 p q k) :=
  (Host.reduce_eq_fold_single FloatOps.maximumf x init h' h hu (ix2 p q)).trans
    (Finset.fold_congr fun k _ => congrArg x (funext fun ax => Fin.ext (by
      match ax with
      | ⟨0, _⟩ => rfl
      | ⟨1, _⟩ => rfl
      | ⟨2, _⟩ => rfl)))

end Idealize.ShloMosaic.ValueIdx
-- ==== Proof.RefValue.lean ====
/- The reference's result, stage by stage, is the specification's function of the three arguments. -/
import proofs.«171464_j53326313947744_1_alg».proof.Defs
import proofs.«171464_j53326313947744_1_alg».proof.Proof.Gen.ReferenceIdeal.Run
import proofs.«171464_j53326313947744_1_alg».proof.Proof.Gen.ReferenceIdeal.Read
import proofs.«171464_j53326313947744_1_alg».proof.Proof.Spec
import proofs.«171464_j53326313947744_1_alg».proof.Proof.LibStretchSum
import proofs.«171464_j53326313947744_1_alg».proof.Proof.LibMaxAxes
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen Cert.ReferenceIdeal.Read

/-! ## The flattened arguments

Each argument is carried to [B, D, C·H·W]: at (b, d, k) it is the argument at batch b, channel k / 6400, depth d,
row (k / 80) % 80 and column k % 80. The channel is written k / 6400 % 16, which is the same number below 102400
and is below 16 for every natural k. -/

/-- The first argument, flattened, at (b, d, k). -/
theorem flat_first (x : FVec Ideal S2x16x128x80x80 .f32) (b : Fin 2) (d : Fin 128) (k : Fin 102400) :
    val_main_v1 (F := Ideal) x (ix3 b d k)
      = x (ix5 b (⟨k.val / 6400 % 16, by omega⟩ : Fin 16) d (⟨k.val / 80 % 80, by omega⟩ : Fin 80)
          (⟨k.val % 80, by omega⟩ : Fin 80)) := by
  rw [val_main_v1_apply, val_main_v0_apply]
  refine congrArg x (funext fun a => Fin.ext ?_)
  have hb := b.isLt
  have hd := d.isLt
  have hk := k.isLt
  match a with
  | ⟨0, _⟩ => show ((b.val * 128 + d.val) * 102400 + k.val) / 13107200 = b.val; omega
  | ⟨1, _⟩ => show ((b.val * 128 + d.val) * 102400 + k.val) / 6400 % 16 = k.val / 6400 % 16; omega
  | ⟨2, _⟩ => show ((b.val * 128 + d.val) * 102400 + k.val) / 102400 % 128 = d.val; omega
  | ⟨3, _⟩ => show ((b.val * 128 + d.val) * 102400 + k.val) / 80 % 80 = k.val / 80 % 80; omega
  | ⟨4, _⟩ => show ((b.val * 128 + d.val) * 102400 + k.val) % 80 = k.val % 80; omega

/-- The second argument, flattened, at (b, d, k). -/
theorem flat_second (x : FVec Ideal S2x16x128x80x80 .f32) (b : Fin 2) (d : Fin 128) (k : Fin 102400) :
    val_main_v3 (F := Ideal) x (ix3 b d k)
      = x (ix5 b (⟨k.val / 6400 % 16, by omega⟩ : Fin 16) d (⟨k.val / 80 % 80, by omega⟩ : Fin 80)
          (⟨k.val % 80, by omega⟩ : Fin 80)) := by
  rw [val_main_v3_apply, val_main_v2_apply]
  refine congrArg x (funext fun a => Fin.ext ?_)
  have hb := b.isLt
  have hd := d.isLt
  have hk := k.isLt
  match a with
  | ⟨0, _⟩ => show ((b.val * 128 + d.val) * 102400 + k.val) / 13107200 = b.val; omega
  | ⟨1, _⟩ => show ((b.val * 128 + d.val) * 102400 + k.val) / 6400 % 16 = k.val / 6400 % 16; omega
  | ⟨2, _⟩ => show ((b.val * 128 + d.val) * 102400 + k.val) / 102400 % 128 = d.val; omega
  | ⟨3, _⟩ => show ((b.val * 128 + d.val) * 102400 + k.val) / 80 % 80 = k.val / 80 % 80; omega
  | ⟨4, _⟩ => show ((b.val * 128 + d.val) * 102400 + k.val) % 80 = k.val % 80; omega

/-- The third argument, flattened, at (b, d, k). -/
theorem flat_third (x : FVec Ideal S2x16x128x80x80 .f32) (b : Fin 2) (d : Fin 128) (k : Fin 102400) :
    val_main_v5 (F := Ideal) x (ix3 b d k)
      = x (ix5 b (⟨k.val / 6400 % 16, by omega⟩ : Fin 16) d (⟨k.val / 80 % 80, by omega⟩ : Fin 80)
          (⟨k.val % 80, by omega⟩ : Fin 80)) := by
  rw [val_main_v5_apply, val_main_v4_apply]
  refine congrArg x (funext fun a => Fin.ext ?_)
  have hb := b.isLt
  have hd := d.isLt
  have hk := k.isLt
  match a with
  | ⟨0, _⟩ => show ((b.val * 128 + d.val) * 102400 + k.val) / 13107200 = b.val; omega
  | ⟨1, _⟩ => show ((b.val * 128 + d.val) * 102400 + k.val) / 6400 % 16 = k.val / 6400 % 16; omega
  | ⟨2, _⟩ => show ((b.val * 128 + d.val) * 102400 + k.val) / 102400 % 128 = d.val; omega
  | ⟨3, _⟩ => show ((b.val * 128 + d.val) * 102400 + k.val) / 80 % 80 = k.val / 80 % 80; omega
  | ⟨4, _⟩ => show ((b.val * 128 + d.val) * 102400 + k.val) % 80 = k.val % 80; omega

/-! ## The scores -/

/-- A sum over k < 102400 is the sum over the 16 channels of the sums over the 6400 positions, k = 6400·c + q. -/
theorem sum_channels (f : ℕ → Ideal .f32) :
    ∑ k : Fin 102400, f k.val = ∑ cc : Fin 16, ∑ q : Fin 6400, f (6400 * cc.val + q.val) := by
  rw [Fin.sum_univ_eq_sum_range (fun s => ∑ q : Fin 6400, f (6400 * s + q.val)) 16]
  exact (Cert.Algebra.sum_fin_stretches f 16 6400).symm

/-- At k = 6400·c + q the channel is c and the position in the tile is q's row and column. -/
theorem ix5_tile (b : Fin 2) (cc : Fin 16) (d : Fin 128) (q : Fin 6400)
    (h1 : (6400 * cc.val + q.val) / 6400 % 16 < 16) (h3 : (6400 * cc.val + q.val) / 80 % 80 < 80)
    (h4 : (6400 * cc.val + q.val) % 80 < 80) :
    (ix5 b (⟨(6400 * cc.val + q.val) / 6400 % 16, h1⟩ : Fin 16) d (⟨(6400 * cc.val + q.val) / 80 % 80, h3⟩ : Fin 80)
        (⟨(6400 * cc.val + q.val) % 80, h4⟩ : Fin 80) : Cert.Spec.SX.Idx)
      = ix5 b cc d (Cert.Spec.tileRow q) (Cert.Spec.tileCol q) := by
  have hc := cc.isLt
  have hq := q.isLt
  refine funext fun a => Fin.ext ?_
  match a with
  | ⟨0, _⟩ => rfl
  | ⟨1, _⟩ => show (6400 * cc.val + q.val) / 6400 % 16 = cc.val; omega
  | ⟨2, _⟩ => rfl
  | ⟨3, _⟩ => show (6400 * cc.val + q.val) / 80 % 80 = q.val / 80; omega
  | ⟨4, _⟩ => show (6400 * cc.val + q.val) % 80 = q.val % 80; omega

/-- The contraction's single sum over k, regrouped by channel and position, is the specification's score. -/
theorem score_sum (x xt : FVec Ideal S2x16x128x80x80 .f32) (b : Fin 2) (d e : Fin 128) :
    ∑ k : Fin 102400,
        x (ix5 b (⟨k.val / 6400 % 16, by omega⟩ : Fin 16) d (⟨k.val / 80 % 80, by omega⟩ : Fin 80)
            (⟨k.val % 80, by omega⟩ : Fin 80))
          * xt (ix5 b (⟨k.val / 6400 % 16, by omega⟩ : Fin 16) e (⟨k.val / 80 % 80, by omega⟩ : Fin 80)
            (⟨k.val % 80, by omega⟩ : Fin 80))
      = Cert.Spec.score x xt b d e := by
  refine (sum_channels (fun n =>
      x (ix5 b (⟨n / 6400 % 16, by omega⟩ : Fin 16) d (⟨n / 80 % 80, by omega⟩ : Fin 80) (⟨n % 80, by omega⟩ : Fin 80))
        * xt (ix5 b (⟨n / 6400 % 16, by omega⟩ : Fin 16) e (⟨n / 80 % 80, by omega⟩ : Fin 80)
            (⟨n % 80, by omega⟩ : Fin 80)))).trans ?_
  unfold Cert.Spec.score
  refine Finset.sum_congr rfl fun cc _ => Finset.sum_congr rfl fun q _ => ?_
  rw [ix5_tile, ix5_tile]

/-- The score stage at (b, d, e). -/
theorem score_eq (x xt : FVec Ideal S2x16x128x80x80 .f32) (b : Fin 2) (d e : Fin 128) :
    val_main_v6 (F := Ideal) x xt (ix3 b d e) = Cert.Spec.score x xt b d e := by
  rw [val_main_v6_apply]
  have hl : ∀ k : Fin 102400, lidx_main_v6 (ix3 b d e) k = ix3 b d k := fun k => funext fun a => by
    match a with
    | ⟨0, _⟩ => rfl
    | ⟨1, _⟩ => rfl
    | ⟨2, _⟩ => rfl
  have hr : ∀ k : Fin 102400, ridx_main_v6 (ix3 b d e) k = ix3 b e k := fun k => funext fun a => by
    match a with
    | ⟨0, _⟩ => rfl
    | ⟨1, _⟩ => rfl
    | ⟨2, _⟩ => rfl
  simp only [hl, hr, flat_first, flat_second]
  exact score_sum x xt b d e

/-! ## The softmax -/

/-- The row's maximum stage at (b, d). -/
theorem rowMax_eq (x xt : FVec Ideal S2x16x128x80x80 .f32) (b : Fin 2) (d : Fin 128) :
    val_main_v9 (F := Ideal) x xt (ix2 b d) = Cert.Spec.rowMax (fun k => Cert.Spec.score x xt b d k) := by
  have h7 : val_main_v7 (F := Ideal) x xt (ix2 b d)
      = (Finset.univ : Finset (Fin 128)).fold max Cert.Spec.negInf (fun k => Cert.Spec.score x xt b d k) := by
    unfold val_main_v7
    refine (hostReduce_max_last3_apply _ _ reducesTo_S2x128x128_S2x128_d2 (by decide) h_S_ b d).trans ?_
    rw [val_main_cst_apply, Ideal.ofBits_def]
    exact Finset.fold_congr (fun k _ => score_eq x xt b d k)
  rw [val_main_v9_apply, val_main_v8_apply, val_main_cst_0_apply, h7, Ideal.maximumf_def, Ideal.ofBits_def]
  rfl

/-- The exponential stage at (b, d, e). -/
theorem exp_eq (x xt : FVec Ideal S2x16x128x80x80 .f32) (b : Fin 2) (d e : Fin 128) :
    val_main_v13 (F := Ideal) x xt (ix3 b d e)
      = Ideal.exp (Cert.Spec.score x xt b d e - Cert.Spec.rowMax (fun k => Cert.Spec.score x xt b d k)) := by
  have hi : idx_main_v10 (idx_main_v11 (ix3 b d e)) = ix2 b d := funext fun a => by
    match a with
    | ⟨0, _⟩ => rfl
    | ⟨1, _⟩ => rfl
  rw [val_main_v13_apply, val_main_v12_apply, val_main_v11_apply, val_main_v10_apply, hi, rowMax_eq, score_eq,
    Ideal.hostUnary_exp_def, Ideal.subf_def]

/-- The weights stage at (b, d, e). -/
theorem weights_eq (x xt : FVec Ideal S2x16x128x80x80 .f32) (b : Fin 2) (d e : Fin 128) :
    val_main_v17 (F := Ideal) x xt (ix3 b d e) = Cert.Spec.soft (fun k => Cert.Spec.score x xt b d k) e := by
  have hi : idx_main_v15 (idx_main_v16 (ix3 b d e)) = ix2 b d := funext fun a => by
    match a with
    | ⟨0, _⟩ => rfl
    | ⟨1, _⟩ => rfl
  have hk : ∀ k : Fin 128, idx_main_v14 (ix2 b d) k = ix3 b d k := fun k => funext fun a => by
    match a with
    | ⟨0, _⟩ => rfl
    | ⟨1, _⟩ => rfl
    | ⟨2, _⟩ => rfl
  rw [val_main_v17_apply, val_main_v16_apply, val_main_v15_apply, hi, val_main_v14_apply, val_main_cst_1_apply]
  simp only [hk, exp_eq, Ideal.ofBits_def, Ideal.ofBits_zero_f32, zero_add, Ideal.hostDivf_def]
  rfl

/-! ## The result -/

/-- The weights' index under the last contraction, at the result's (b, c, d, h, w). -/
theorem left_index (b : Fin 2) (c : Fin 16) (d : Fin 128) (h w : Fin 80) (e : Fin 128) :
    lidx_main_v18 (idx_main_v19 (idx_main_v20 (ix5 b c d h w))) e = ix3 b d e := by
  have hb := b.isLt
  have hc := c.isLt
  have hd := d.isLt
  have hh := h.isLt
  have hw := w.isLt
  refine funext fun a => Fin.ext ?_
  match a with
  | ⟨0, _⟩ =>
    show ((((b.val * 128 + d.val) * 16 + c.val) * 80 + h.val) * 80 + w.val) / 13107200 = b.val; omega
  | ⟨1, _⟩ =>
    show ((((b.val * 128 + d.val) * 16 + c.val) * 80 + h.val) * 80 + w.val) / 102400 % 128 = d.val; omega
  | ⟨2, _⟩ => rfl

/-- The third argument's index under the last contraction, at the result's (b, c, d, h, w). -/
theorem right_index (b : Fin 2) (c : Fin 16) (d : Fin 128) (h w : Fin 80) (e : Fin 128) :
    idx_main_v4 (idx_main_v5 (ridx_main_v18 (idx_main_v19 (idx_main_v20 (ix5 b c d h w))) e)) = ix5 b c e h w := by
  have hb := b.isLt
  have hc := c.isLt
  have hd := d.isLt
  have hh := h.isLt
  have hw := w.isLt
  have he := e.isLt
  refine funext fun a => Fin.ext ?_
  match a with
  | ⟨0, _⟩ =>
    show ((((((b.val * 128 + d.val) * 16 + c.val) * 80 + h.val) * 80 + w.val) / 13107200 * 128 + e.val) * 102400 + ((((b.val * 128 + d.val) * 16 + c.val) * 80 + h.val) * 80 + w.val) % 102400) / 13107200 = b.val
    omega
  | ⟨1, _⟩ =>
    show ((((((b.val * 128 + d.val) * 16 + c.val) * 80 + h.val) * 80 + w.val) / 13107200 * 128 + e.val) * 102400 + ((((b.val * 128 + d.val) * 16 + c.val) * 80 + h.val) * 80 + w.val) % 102400) / 6400 % 16 = c.val
    omega
  | ⟨2, _⟩ =>
    show ((((((b.val * 128 + d.val) * 16 + c.val) * 80 + h.val) * 80 + w.val) / 13107200 * 128 + e.val) * 102400 + ((((b.val * 128 + d.val) * 16 + c.val) * 80 + h.val) * 80 + w.val) % 102400) / 102400 % 128 = e.val
    omega
  | ⟨3, _⟩ =>
    show ((((((b.val * 128 + d.val) * 16 + c.val) * 80 + h.val) * 80 + w.val) / 13107200 * 128 + e.val) * 102400 + ((((b.val * 128 + d.val) * 16 + c.val) * 80 + h.val) * 80 + w.val) % 102400) / 80 % 80 = h.val
    omega
  | ⟨4, _⟩ =>
    show ((((((b.val * 128 + d.val) * 16 + c.val) * 80 + h.val) * 80 + w.val) / 13107200 * 128 + e.val) * 102400 + ((((b.val * 128 + d.val) * 16 + c.val) * 80 + h.val) * 80 + w.val) % 102400) % 80 = w.val
    omega

/-- The reference's last stage is the specification's result of the three arguments. -/
theorem ref_eq (x xt g : FVec Ideal S2x16x128x80x80 .f32) :
    val_main_v20 (F := Ideal) x xt g = Cert.Spec.result x xt g := by
  funext i
  obtain ⟨b, c, d, h, w, rfl⟩ : ∃ (b : Fin 2) (c : Fin 16) (d : Fin 128) (h : Fin 80) (w : Fin 80),
      i = ix5 b c d h w := ⟨i 0, i 1, i 2, i 3, i 4, eq_ix5 i⟩
  rw [val_main_v20_apply, val_main_v19_apply, val_main_v18_apply]
  show _ = ∑ e : Fin 128, Cert.Spec.soft (fun k => Cert.Spec.score x xt b d k) e * g (ix5 b c e h w)
  refine Finset.sum_congr rfl fun e _ => ?_
  rw [left_index, weights_eq, val_main_v5_apply, val_main_v4_apply, right_index]

end Cert.ReferenceIdeal.RefValue

end
-- ==== Proof.lean ====
/- The certificate's claim, assembled.

   Both printed kernels are two regions in a row (the scores region, which accumulates a 128 × 128 matrix of scores
   over the 16 channels of a batch and stores its softmax at the last channel, and the region that applies those
   weights to the third argument). Their frames come from one run theorem, proved once for any float instance and
   laid out under each program's namespace: the run ends, nothing faults, the arguments end as launched, and the
   result array ends at the second region's composed write-backs. The reference is a straight line of host
   operations; its frame is its run with the result dropped. The idealization rewrote nothing, so there is nothing to
   preserve. For the equivalence, both results are shown to be one function of the arguments, `Cert.Spec.result`:
   the kernel's by reading the two regions' write-backs (the accumulated block products regrouped as one sum, the
   softmax operation by operation, the weighted sum tile by tile), the reference's by reading its stages at an index
   (the flattened sum over all 102400 positions cut into the 16 channels' stretches). Only commutativity and
   associativity of the sum are used, so no finiteness of the inputs is needed. -/
import proofs.«171464_j53326313947744_1_alg».proof.Defs
import proofs.«171464_j53326313947744_1_alg».proof.Proof.Gen.Kernel
import proofs.«171464_j53326313947744_1_alg».proof.Proof.Gen.KernelIdeal
import proofs.«171464_j53326313947744_1_alg».proof.Proof.Gen.ReferenceIdeal
import proofs.«171464_j53326313947744_1_alg».proof.Proof.Gen.Pre_finite_inputs
import proofs.«171464_j53326313947744_1_alg».proof.Proof.Gen.ReferenceIdeal.Run
import proofs.«171464_j53326313947744_1_alg».proof.Proof.Gen.ReferenceIdeal.Read
import proofs.«171464_j53326313947744_1_alg».proof.Proof.Bits.Run
import proofs.«171464_j53326313947744_1_alg».proof.Proof.Run
import proofs.«171464_j53326313947744_1_alg».proof.Proof.ScoresValue
import proofs.«171464_j53326313947744_1_alg».proof.Proof.OutvValue
import proofs.«171464_j53326313947744_1_alg».proof.Proof.RefValue

noncomputable section

namespace Cert.Proof

open Idealize.ShloMosaic Idealize.ShloMosaic.TcCoe Idealize.SL.Sem

theorem frame_kernel : Cert.frame_Kernel := fun m ρ _ =>
  (θ_run Cert.Kernel.defs _ _).mono (fun _ h c => (h c).2) (Cert.Kernel.Run.run (F := Bits) m ρ)

theorem frame_kernelIdeal : Cert.frame_KernelIdeal := fun m ρ _ =>
  (θ_run Cert.KernelIdeal.defs _ _).mono (fun _ h c => (h c).2) (Cert.KernelIdeal.Run.run (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array after its run is the specification's function of the launch contents of the arguments:
    the second region applies, to the third argument, the weights the scores region left. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    ((Cert.KernelIdeal.Outv.dat (F := Ideal) (Cert.KernelIdeal.Run.V1 m ρ) c).arrAt 2 Cert.KernelIdeal.cfg1.N : FVec Ideal Cert.KernelIdeal.S2x16x128x80x80 .f32)
      = Cert.Spec.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.OutvValue.final, Cert.KernelIdeal.Run.V1_main_v0, Cert.KernelIdeal.Run.V1_main_arg2,
    Cert.KernelIdeal.ScoresValue.final]
  rfl

theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
